-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S256x1 : Shape := ⟨2, ![256, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S100000x128 .f32) (main_arg1 : IVec S2x800000 32) (main_arg2 : FVec F S128x128 .f32) (main_arg3 : FVec F S256x1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x1 .f32 := Host.absf main_arg3
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S100000x128 : Shape := ⟨2, ![100000, 128]⟩
abbrev S2x800000 : Shape := ⟨2, ![2, 800000]⟩
abbrev S128x128 : Shape := ⟨2, ![128, 128]⟩
abbrev S256x1 : Shape := ⟨2, ![256, 1]⟩
abbrev S128x1 : Shape := ⟨2, ![128, 1]⟩
abbrev S_ : Shape := ⟨0, ![]⟩
abbrev S128x256 : Shape := ⟨2, ![128, 256]⟩
abbrev S1 : Shape := ⟨1, ![1]⟩
abbrev S128 : Shape := ⟨1, ![128]⟩
abbrev S100000x256 : Shape := ⟨2, ![100000, 256]⟩
abbrev S5000x128 : Shape := ⟨2, ![5000, 128]⟩
abbrev S5000x256 : Shape := ⟨2, ![5000, 256]⟩
abbrev S100000x1 : Shape := ⟨2, ![100000, 1]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S900000x1 : Shape := ⟨2, ![900000, 1]⟩
abbrev S900000x128 : Shape := ⟨2, ![900000, 128]⟩
abbrev S12000x1 : Shape := ⟨2, ![12000, 1]⟩
abbrev S1x1 : Shape := ⟨2, ![1, 1]⟩
abbrev S12000x128 : Shape := ⟨2, ![12000, 128]⟩

abbrev nBuf : Space → Nat
  | .hbm => 85
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S256x1, .f32⟩
  | .hbm, ⟨4, _⟩ => ⟨S128x1, .f32⟩
  | .hbm, ⟨5, _⟩ => ⟨S128x1, .f32⟩
  | .hbm, ⟨6, _⟩ => ⟨S128x1, .f32⟩
  | .hbm, ⟨7, _⟩ => ⟨S128x1, .f32⟩
  | .hbm, ⟨8, _⟩ => ⟨S_, .f32⟩
  | .hbm, ⟨9, _⟩ => ⟨S128x256, .f32⟩
  | .hbm, ⟨10, _⟩ => ⟨S_, .i32⟩
  | .hbm, ⟨11, _⟩ => ⟨S1, .i32⟩
  | .hbm, ⟨12, _⟩ => ⟨S128x256, .f32⟩
  | .hbm, ⟨13, _⟩ => ⟨S128, .f32⟩
  | .hbm, ⟨14, _⟩ => ⟨S_, .i32⟩
  | .hbm, ⟨15, _⟩ => ⟨S1, .i32⟩
  | .hbm, ⟨16, _⟩ => ⟨S128x256, .f32⟩
  | .hbm, ⟨17, _⟩ => ⟨S128, .f32⟩
  | .hbm, ⟨18, _⟩ => ⟨S_, .i32⟩
  | .hbm, ⟨19, _⟩ => ⟨S1, .i32⟩
  | .hbm, ⟨20, _⟩ => ⟨S128x256, .f32⟩
  | .hbm, ⟨21, _⟩ => ⟨S100000x256, .f32⟩
  | .hbm, ⟨22, _⟩ => ⟨S100000x128, .f32⟩
  | .hbm, ⟨23, _⟩ => ⟨S100000x1, .f32⟩
  | .hbm, ⟨24, _⟩ => ⟨S100000, .f32⟩
  | .hbm, ⟨25, _⟩ => ⟨S100000x1, .f32⟩
  | .hbm, ⟨26, _⟩ => ⟨S100000, .f32⟩
  | .hbm, ⟨27, _⟩ => ⟨S100000, .i32⟩
  | .hbm, ⟨28, _⟩ => ⟨S1x800000, .i32⟩
  | .hbm, ⟨29, _⟩ => ⟨S800000, .i32⟩
  | .hbm, ⟨30, _⟩ => ⟨S900000, .i32⟩
  | .hbm, ⟨31, _⟩ => ⟨S1x800000, .i32⟩
  | .hbm, ⟨32, _⟩ => ⟨S800000, .i32⟩
  | .hbm, ⟨33, _⟩ => ⟨S900000, .i32⟩
  | .hbm, ⟨34, _⟩ => ⟨S_, .i32⟩
  | .hbm, ⟨35, _⟩ => ⟨S900000, .i32⟩
  | .hbm, ⟨36, _⟩ => ⟨S900000, .i1⟩
  | .hbm, ⟨37, _⟩ => ⟨S_, .i32⟩
  | .hbm, ⟨38, _⟩ => ⟨S900000, .i32⟩
  | .hbm, ⟨39, _⟩ => ⟨S900000, .i32⟩
  | .hbm, ⟨40, _⟩ => ⟨S900000, .i32⟩
  | .hbm, ⟨41, _⟩ => ⟨S900000x1, .i32⟩
  | .hbm, ⟨42, _⟩ => ⟨S900000, .f32⟩
  | .hbm, ⟨43, _⟩ => ⟨S900000x1, .f32⟩
  | .hbm, ⟨44, _⟩ => ⟨S_, .i32⟩
  | .hbm, ⟨45, _⟩ => ⟨S900000, .i32⟩
  | .hbm, ⟨46, _⟩ => ⟨S900000, .i1⟩
  | .hbm, ⟨47, _⟩ => ⟨S_, .i32⟩
  | .hbm, ⟨48, _⟩ => ⟨S900000, .i32⟩
  | .hbm, ⟨49, _⟩ => ⟨S900000, .i32⟩
  | .hbm, ⟨50, _⟩ => ⟨S900000, .i32⟩
  | .hbm, ⟨51, _⟩ => ⟨S900000x1, .i32⟩
  | .hbm, ⟨52, _⟩ => ⟨S900000, .f32⟩
  | .hbm, ⟨53, _⟩ => ⟨S900000x1, .f32⟩
  | .hbm, ⟨54, _⟩ => ⟨S_, .i32⟩
  | .hbm, ⟨55, _⟩ => ⟨S900000, .i32⟩
  | .hbm, ⟨56, _⟩ => ⟨S900000, .i1⟩
  | .hbm, ⟨57, _⟩ => ⟨S_, .i32⟩
  | .hbm, ⟨58, _⟩ => ⟨S900000, .i32⟩
  | .hbm, ⟨59, _⟩ => ⟨S900000, .i32⟩
  | .hbm, ⟨60, _⟩ => ⟨S900000, .i32⟩
  | .hbm, ⟨61, _⟩ => ⟨S900000x1, .i32⟩
  | .hbm, ⟨62, _⟩ => ⟨S900000x128, .f32⟩
  | .hbm, ⟨63, _⟩ => ⟨S900000x1, .f32⟩
  | .hbm, ⟨64, _⟩ => ⟨S_, .f32⟩
  | .hbm, ⟨65, _⟩ => ⟨S_, .f32⟩
  | .hbm, ⟨66, _⟩ => ⟨S1x1, .f32⟩
  | .hbm, ⟨67, _⟩ => ⟨S900000x1, .f32⟩
  | .hbm, ⟨68, _⟩ => ⟨S900000x128, .f32⟩
  | .hbm, ⟨69, _⟩ => ⟨S900000, .f32⟩
  | .hbm, ⟨70, _⟩ => ⟨S_, .f32⟩
  | .hbm, ⟨71, _⟩ => ⟨S100000, .f32⟩
  | .hbm, ⟨72, _⟩ => ⟨S900000x1, .i32⟩
  | .hbm, ⟨73, _⟩ => ⟨S100000, .f32⟩
  | .hbm, ⟨74, _⟩ => ⟨S100000x1, .f32⟩
  | .hbm, ⟨75, _⟩ => ⟨S_, .f32⟩
  | .hbm, ⟨76, _⟩ => ⟨S100000x1, .f32⟩
  | .hbm, ⟨77, _⟩ => ⟨S100000x1, .f32⟩
  | .hbm, ⟨78, _⟩ => ⟨S_, .f32⟩
  | .hbm, ⟨79, _⟩ => ⟨S100000x128, .f32⟩
  | .hbm, ⟨80, _⟩ => ⟨S900000x1, .i32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S12000x1, .f32⟩
  | .local _ .vmem, ⟨6, _⟩ => ⟨S12000x1, .f32⟩
  | .local _ .vmem, ⟨7, _⟩ => ⟨S12000x1, .f32⟩
  | .local _ .vmem, ⟨8, _⟩ => ⟨S12000x1, .f32⟩
  | .local _ .vmem, ⟨9, _⟩ => ⟨S12000x1, .f32⟩
  | .local _ .vmem, ⟨10, _⟩ => ⟨S12000x1, .f32⟩
  | .local _ .vmem, ⟨11, _⟩ => ⟨S12000x1, .f32⟩
  | .local _ .vmem, ⟨12, _⟩ => ⟨S12000x1, .f32⟩
  | .local _ .vmem, ⟨13, _⟩ => ⟨S12000x128, .f32⟩
  | .local _ .vmem, ⟨14, _⟩ => ⟨S12000x128, .f32⟩
  | .local _ .vmem, ⟨15, _⟩ => ⟨S1x1, .f32⟩
  | .local _ .vmem, ⟨16, _⟩ => ⟨S12000x1, .f32⟩
  | .local _ .vmem, ⟨17, _⟩ => ⟨S12000x1, .f32⟩
  | .local _ .vmem, ⟨18, _⟩ => ⟨S12000x128, .f32⟩
  | .local _ .vmem, ⟨19, _⟩ => ⟨S12000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_c_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52_0 : Ref sig .tc := ⟨.hbm, 67, rfl⟩
abbrev main_v52_1 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![75], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S12000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S12000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S12000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S256x1_S128x1_0_0 : S256x1.Slices ![0, 0] S128x1
  slices_S256x1_S128x1_128_0 : S256x1.Slices ![128, 0] S128x1
  bcast_S_S128x256 : S_.BroadcastsInDim S128x256 (![] : Fin 0 → Fin S128x256.rank)
  bcast_S_S1 : S_.BroadcastsInDim S1 (![] : Fin 0 → Fin S1.rank)
  shapeCasts_S128x1_S128 : S128x1.ShapeCasts S128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  slices_S100000x256_S100000x128_0_0 : S100000x256.Slices ![0, 0] S100000x128
  slices_S100000x256_S100000x1_0_128 : S100000x256.Slices ![0, 128] S100000x1
  shapeCasts_S100000x1_S100000 : S100000x1.ShapeCasts S100000
  slices_S100000x256_S100000x1_0_129 : S100000x256.Slices ![0, 129] S100000x1
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S900000_S900000x1_0 : S900000.BroadcastsInDim S900000x1 (![0] : Fin 1 → Fin S900000x1.rank)
  shapeCasts_S900000_S900000x1 : S900000.ShapeCasts S900000x1
  inb_S12000x1_S12000x1_0_0 : ∀ a, (![0, 0] : Fin 2 → Nat) a + S12000x1.size a ≤ S12000x1.size a
  h_S12000x1 : 0 < S12000x1.numel
  shapeCasts_S12000x1_S12000x1 : S12000x1.ShapeCasts S12000x1
  reducesTo_S900000x1_S_d0_1 : S900000x1.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S12000x128_S12000x128_0_0 : ∀ a, (![0, 0] : Fin 2 → Nat) a + S12000x128.size a ≤ S12000x128.size a
  h_S12000x128 : 0 < S12000x128.numel
  shapeCasts_S12000x128_S12000x128 : S12000x128.ShapeCasts S12000x128
  broadcasts_S12000x1_S12000x128 : S12000x1.Broadcasts S12000x128
  shapeCasts_S900000x1_S900000 : S900000x1.ShapeCasts S900000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  dot_S128x128_S128x1_S128x1_1_0_0_1_n_n_wf : DotDims.WF S128x128 S128x1 S128x1 [1] [0] [0] [1] [] []
  scatter_S128x256_S1_S128x128_01_n_1_0_wf : ScatterDims.WF S128x256 S1 S128x128 [0, 1] [] [1] 0
  scatter_S128x256_S1_S128_0_1_1_0_wf : ScatterDims.WF S128x256 S1 S128 [0] [1] [1] 0
  dot_S5000x128_S128x256_S5000x256_1_0_0_1_n_n_wf : DotDims.WF S5000x128 S128x256 S5000x256 [1] [0] [0] [1] [] []
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000_S900000x1_S900000_n_0_0_1_wf : ScatterDims.WF S100000 S900000x1 S900000 [] [0] [0] 1
  scatter_S100000x128_S900000x1_S900000x128_1_0_0_1_wf : ScatterDims.WF S100000x128 S900000x1 S900000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12000x1.size a ≤ S900000x1.size a
  hwx1_0 : ∀ i : grid1.Coords, EltTy.bits .f32 = 32 ∨ (Rect.block (s := S900000x1) S12000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12000x1.size a ≤ S900000x1.size a
  hwx1_1 : ∀ i : grid1.Coords, EltTy.bits .f32 = 32 ∨ (Rect.block (s := S900000x1) S12000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12000x1.size a ≤ S900000x1.size a
  hwx1_2 : ∀ i : grid1.Coords, EltTy.bits .f32 = 32 ∨ (Rect.block (s := S900000x1) S12000x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S12000x1.size a ≤ S900000x1.size a
  hwx2_0 : ∀ i : grid2.Coords, EltTy.bits .f32 = 32 ∨ (Rect.block (s := S900000x1) S12000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S12000x128.size a ≤ S900000x128.size a
  hwx2_1 : ∀ i : grid2.Coords, EltTy.bits .f32 = 32 ∨ (Rect.block (s := S900000x128) S12000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S12000x1.size a ≤ S900000x1.size a
  hwx2_3 : ∀ i : grid2.Coords, EltTy.bits .f32 = 32 ∨ (Rect.block (s := S900000x1) S12000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S12000x128.size a ≤ S900000x128.size a
  hwx2_4 : ∀ i : grid2.Coords, EltTy.bits .f32 = 32 ∨ (Rect.block (s := S900000x128) S12000x128.size (cc2_transform_4 i) (hinb2_4 i)).WholeWords (EltTy.packing .f32)

variable [Facts₀]

def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def scatter_S128x256_S1_S128x128_01_n_1_0 : ScatterDims S128x256 S1 S128x128 where
  updateWindowDims := [0, 1]
  insertedWindowDims := []
  scatterDimsToOperandDims := [1]
  indexVectorDim := 0
  wf := scatter_S128x256_S1_S128x128_01_n_1_0_wf
def scatter_S128x256_S1_S128_0_1_1_0 : ScatterDims S128x256 S1 S128 where
  updateWindowDims := [0]
  insertedWindowDims := [1]
  scatterDimsToOperandDims := [1]
  indexVectorDim := 0
  wf := scatter_S128x256_S1_S128_0_1_1_0_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S12000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S12000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S12000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S12000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S12000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52_0) S12000x1.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v52_1) S12000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S256x1 : Shape := ⟨2, ![256, 1]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S128x1 : Shape := ⟨2, ![128, 1]⟩
abbrev S100000x1 : Shape := ⟨2, ![100000, 1]⟩
abbrev S_ : Shape := ⟨0, ![]⟩
abbrev S900000x1 : Shape := ⟨2, ![900000, 1]⟩
abbrev S900000x128 : Shape := ⟨2, ![900000, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S256x1, .f32⟩
  | .hbm, ⟨4, _⟩ => ⟨S100000, .i32⟩
  | .hbm, ⟨5, _⟩ => ⟨S1x800000, .i32⟩
  | .hbm, ⟨6, _⟩ => ⟨S800000, .i32⟩
  | .hbm, ⟨7, _⟩ => ⟨S900000, .i32⟩
  | .hbm, ⟨8, _⟩ => ⟨S1x800000, .i32⟩
  | .hbm, ⟨9, _⟩ => ⟨S800000, .i32⟩
  | .hbm, ⟨10, _⟩ => ⟨S900000, .i32⟩
  | .hbm, ⟨11, _⟩ => ⟨S100000x128, .f32⟩
  | .hbm, ⟨12, _⟩ => ⟨S128x1, .f32⟩
  | .hbm, ⟨13, _⟩ => ⟨S100000x1, .f32⟩
  | .hbm, ⟨14, _⟩ => ⟨S100000, .f32⟩
  | .hbm, ⟨15, _⟩ => ⟨S128x1, .f32⟩
  | .hbm, ⟨16, _⟩ => ⟨S100000x1, .f32⟩
  | .hbm, ⟨17, _⟩ => ⟨S100000, .f32⟩
  | .hbm, ⟨18, _⟩ => ⟨S_, .i32⟩
  | .hbm, ⟨19, _⟩ => ⟨S900000, .i32⟩
  | .hbm, ⟨20, _⟩ => ⟨S900000, .i1⟩
  | .hbm, ⟨21, _⟩ => ⟨S_, .i32⟩
  | .hbm, ⟨22, _⟩ => ⟨S900000, .i32⟩
  | .hbm, ⟨23, _⟩ => ⟨S900000, .i32⟩
  | .hbm, ⟨24, _⟩ => ⟨S900000, .i32⟩
  | .hbm, ⟨25, _⟩ => ⟨S900000x1, .i32⟩
  | .hbm, ⟨26, _⟩ => ⟨S900000, .f32⟩
  | .hbm, ⟨27, _⟩ => ⟨S_, .i32⟩
  | .hbm, ⟨28, _⟩ => ⟨S900000, .i32⟩
  | .hbm, ⟨29, _⟩ => ⟨S900000, .i1⟩
  | .hbm, ⟨30, _⟩ => ⟨S_, .i32⟩
  | .hbm, ⟨31, _⟩ => ⟨S900000, .i32⟩
  | .hbm, ⟨32, _⟩ => ⟨S900000, .i32⟩
  | .hbm, ⟨33, _⟩ => ⟨S900000, .i32⟩
  | .hbm, ⟨34, _⟩ => ⟨S900000x1, .i32⟩
  | .hbm, ⟨35, _⟩ => ⟨S900000, .f32⟩
  | .hbm, ⟨36, _⟩ => ⟨S900000, .f32⟩
  | .hbm, ⟨37, _⟩ => ⟨S_, .f32⟩
  | .hbm, ⟨38, _⟩ => ⟨S_, .f32⟩
  | .hbm, ⟨39, _⟩ => ⟨S900000, .f32⟩
  | .hbm, ⟨40, _⟩ => ⟨S900000, .i1⟩
  | .hbm, ⟨41, _⟩ => ⟨S_, .f32⟩
  | .hbm, ⟨42, _⟩ => ⟨S900000, .f32⟩
  | .hbm, ⟨43, _⟩ => ⟨S900000, .f32⟩
  | .hbm, ⟨44, _⟩ => ⟨S900000, .f32⟩
  | .hbm, ⟨45, _⟩ => ⟨S_, .f32⟩
  | .hbm, ⟨46, _⟩ => ⟨S_, .f32⟩
  | .hbm, ⟨47, _⟩ => ⟨S900000, .f32⟩
  | .hbm, ⟨48, _⟩ => ⟨S900000, .f32⟩
  | .hbm, ⟨49, _⟩ => ⟨S900000, .f32⟩
  | .hbm, ⟨50, _⟩ => ⟨S_, .f32⟩
  | .hbm, ⟨51, _⟩ => ⟨S100000, .f32⟩
  | .hbm, ⟨52, _⟩ => ⟨S900000x1, .i32⟩
  | .hbm, ⟨53, _⟩ => ⟨S100000, .f32⟩
  | .hbm, ⟨54, _⟩ => ⟨S100000x1, .f32⟩
  | .hbm, ⟨55, _⟩ => ⟨S_, .f32⟩
  | .hbm, ⟨56, _⟩ => ⟨S100000x1, .f32⟩
  | .hbm, ⟨57, _⟩ => ⟨S100000x1, .f32⟩
  | .hbm, ⟨58, _⟩ => ⟨S900000x1, .f32⟩
  | .hbm, ⟨59, _⟩ => ⟨S_, .i32⟩
  | .hbm, ⟨60, _⟩ => ⟨S900000, .i32⟩
  | .hbm, ⟨61, _⟩ => ⟨S900000, .i1⟩
  | .hbm, ⟨62, _⟩ => ⟨S_, .i32⟩
  | .hbm, ⟨63, _⟩ => ⟨S900000, .i32⟩
  | .hbm, ⟨64, _⟩ => ⟨S900000, .i32⟩
  | .hbm, ⟨65, _⟩ => ⟨S900000, .i32⟩
  | .hbm, ⟨66, _⟩ => ⟨S900000x1, .i32⟩
  | .hbm, ⟨67, _⟩ => ⟨S900000x128, .f32⟩
  | .hbm, ⟨68, _⟩ => ⟨S900000x128, .f32⟩
  | .hbm, ⟨69, _⟩ => ⟨S900000x128, .f32⟩
  | .hbm, ⟨70, _⟩ => ⟨S_, .f32⟩
  | .hbm, ⟨71, _⟩ => ⟨S100000x128, .f32⟩
  | .hbm, ⟨72, _⟩ => ⟨S900000x1, .i32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_6 : Ref sig .tc := ⟨.hbm, 59, rfl⟩
abbrev main_v41 : Ref sig .tc := ⟨.hbm, 60, rfl⟩
abbrev main_v42 : Ref sig .tc := ⟨.hbm, 61, rfl⟩
abbrev main_c_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  slices_S256x1_S128x1_0_0 : S256x1.Slices ![0, 0] S128x1
  shapeCasts_S100000x1_S100000 : S100000x1.ShapeCasts S100000
  slices_S256x1_S128x1_128_0 : S256x1.Slices ![128, 0] S128x1
  bcast_S_S900000 : S_.BroadcastsInDim S900000 (![] : Fin 0 → Fin S900000.rank)
  bcast_S900000_S900000x1_0 : S900000.BroadcastsInDim S900000x1 (![0] : Fin 1 → Fin S900000x1.rank)
  reducesTo_S900000_S_d0 : S900000.ReducesTo [0] S_
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  gather_S100000_S900000x1_S900000_n_0_n_n_0_1_1_wf : GatherDims.WF S100000 S900000x1 S900000 [] [0] [] [0] [] 1 ![1]
  scatter_S100000_S900000x1_S900000_n_0_0_1_wf : ScatterDims.WF S100000 S900000x1 S900000 [] [0] [0] 1
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

class Facts : Prop extends Facts₀ where

variable [Facts]
-- ==== Proof.KDefs.lean ====
/-
  The kernel program's value, stage by stage, as pure functions of arrays.

  The layer is single-head graph attention over N = 100000 nodes and T = 900000 directed edges (800000 given
  edges followed by one self loop per node). The kernel program computes it in seven stretches:
  • `wext`: the D × 2D matrix whose first D columns are the weight W, whose column D is W·a_top and whose
    column D+1 is W·a_bot (a_top, a_bot the two halves of the attention vector), every other column zero;
  • a tiled matrix product `projAll`: all node rows times that matrix, so that columns 0…D-1 are the projected
    features h = x·W and columns D, D+1 the two per-node attention scores x·(W·a_top), x·(W·a_bot);
  • gathers of the two scores and of h along the edge lists (`srcAll`, `dstAll`, `scoreSrc`, `scoreDst`, `featDst`);
  • a tiled pointwise leaky-relu of the summed scores, `leakyAll`;
  • its global maximum `gmaxOf`;
  • a tiled pointwise stage `expAll` / `contribAll`: e = exp(logit − max) and e · h[dst];
  • `tailOf`: the two segment sums over the source node, the quotient, the residual.
-/
import proofs.«161476_j38508676776169_1_alg».proof.Proof.Gen.KernelIdeal
import Idealize.ShloMosaic.PureOps.Ideal
import Idealize.ShloMosaic.Lib.ValueIdx

noncomputable section

namespace Cert.KernelIdeal.KVal

open Cert.KernelIdeal Cert.KernelIdeal.Facts₀ Idealize.ShloMosaic Idealize.ShloMosaic.ValueIdx

variable {F : FTy → Type} [FloatOps F]

/-! ## Host stretch before the first tiled stage: the extended weight matrix -/

/-- W·(rows 0…127 of the attention vector), as a length-128 vector. -/
def attCol0 (w : FVec F S128x128 .f32) (att : FVec F S256x1 .f32) : FVec F S128 .f32 :=
  shapeCast S128 (Host.dotGeneral dot_S128x128_S128x1_S128x1_1_0_0_1_n_n none w
    (extractStridedSlice S128x1 ![0, 0] att slices_S256x1_S128x1_0_0)) shapeCasts_S128x1_S128

/-- W·(rows 128…255 of the attention vector), as a length-128 vector. -/
def attCol1 (w : FVec F S128x128 .f32) (att : FVec F S256x1 .f32) : FVec F S128 .f32 :=
  shapeCast S128 (Host.dotGeneral dot_S128x128_S128x1_S128x1_1_0_0_1_n_n none w
    (extractStridedSlice S128x1 ![128, 0] att slices_S256x1_S128x1_128_0)) shapeCasts_S128x1_S128

/-- The one-element index vector holding the column number `k`. -/
def colIdx (k : BitVec 32) : IVec S1 32 := broadcastInDim S1 ![] bcast_S_S1 (constantI S_ 32 k)

/-- Zeros with `w` written at columns 0…127, then `c0` at column 128, then `c1` at column 129. -/
def wextOf (w : FVec F S128x128 .f32) (c0 c1 : FVec F S128 .f32) : FVec F S128x256 .f32 :=
  Host.scatter scatter_S128x256_S1_S128_0_1_1_0 (fun _ b => b)
    (Host.scatter scatter_S128x256_S1_S128_0_1_1_0 (fun _ b => b)
      (Host.scatter scatter_S128x256_S1_S128x128_01_n_1_0 (fun _ b => b)
        (broadcastInDim S128x256 ![] bcast_S_S128x256 (constant S_ .f32 0x00000000#32)) (colIdx 0#32) w)
      (colIdx 128#32) c0)
    (colIdx 129#32) c1

/-- The extended weight matrix [W | W·a_top | W·a_bot | 0 …]. -/
def wext (w : FVec F S128x128 .f32) (att : FVec F S256x1 .f32) : FVec F S128x256 .f32 :=
  wextOf w (attCol0 w att) (attCol1 w att)

/-! ## Host stretch between the first and second tiled stages: slices and gathers along the edges -/

/-- Source node of every directed edge: the given sources, then every node (its self loop). -/
def srcAll (ei : IVec S2x800000 32) : IVec S900000 32 :=
  concatenate S900000 0 [⟨S800000, shapeCast S800000 (extractStridedSlice S1x800000 ![0, 0] ei slices_S2x800000_S1x800000_0_0) shapeCasts_S1x800000_S800000⟩,
    ⟨S100000, iotaInDim S100000 32 0⟩] concatenates_S800000_S100000_S900000_d0

/-- Destination node of every directed edge: the given destinations, then every node. -/
def dstAll (ei : IVec S2x800000 32) : IVec S900000 32 :=
  concatenate S900000 0 [⟨S800000, shapeCast S800000 (extractStridedSlice S1x800000 ![1, 0] ei slices_S2x800000_S1x800000_1_0) shapeCasts_S1x800000_S800000⟩,
    ⟨S100000, iotaInDim S100000 32 0⟩] concatenates_S800000_S100000_S900000_d0

/-- A node list as gather indices: a negative entry counts from the end (100000 is added), and the list becomes a
    one-column index table. -/
def wrapIdx (v : IVec S900000 32) : IVec S900000x1 32 :=
  broadcastInDim S900000x1 ![0] bcast_S900000_S900000x1_0
    (select (cmpi .slt v (broadcastInDim S900000 ![] bcast_S_S900000 (constantI S_ 32 0#32)))
      (addi v (broadcastInDim S900000 ![] bcast_S_S900000 (constantI S_ 32 100000#32))) v)

/-- Column `128` (resp. `129`) of the projected array as a per-node vector. -/
def scoreCol128 (hext : FVec F S100000x256 .f32) : FVec F S100000 .f32 :=
  shapeCast S100000 (extractStridedSlice S100000x1 ![0, 128] hext slices_S100000x256_S100000x1_0_128) shapeCasts_S100000x1_S100000
def scoreCol129 (hext : FVec F S100000x256 .f32) : FVec F S100000 .f32 :=
  shapeCast S100000 (extractStridedSlice S100000x1 ![0, 129] hext slices_S100000x256_S100000x1_0_129) shapeCasts_S100000x1_S100000
/-- Columns 0…127 of the projected array: the projected node features. -/
def featCols (hext : FVec F S100000x256 .f32) : FVec F S100000x128 .f32 :=
  extractStridedSlice S100000x128 ![0, 0] hext slices_S100000x256_S100000x128_0_0

/-- A per-node score gathered along a node list, as a one-column array over the edges. -/
def gatherCol (a : FVec F S100000 .f32) (v : IVec S900000 32) : FVec F S900000x1 .f32 :=
  shapeCast S900000x1 (Host.gather gather_S100000_S900000x1_S900000_n_0_n_n_0_1_1 a (wrapIdx v)) shapeCasts_S900000_S900000x1

/-- Node feature rows gathered along a node list. -/
def gatherRows (h : FVec F S100000x128 .f32) (v : IVec S900000 32) : FVec F S900000x128 .f32 :=
  Host.gather gather_S100000x128_S900000x1_S900000x128_1_0_n_n_0_1_1128 h (wrapIdx v)

/-! ## The tiled stages, as whole-array functions (at the extended reals) -/

/-- First tiled stage: entry (r, j) is the sum over k of x(r, k) · w(k, j). -/
def projAll (x : FVec Ideal S100000x128 .f32) (w : FVec Ideal S128x256 .f32) : FVec Ideal S100000x256 .f32 :=
  fun i => ∑ k : Fin 128, x (ix2 (i 0) k) * w (ix2 k (i 1))

/-- Second tiled stage: s = a + b, and s where s ≥ 0, else slope · s (slope the single-precision 0.01). -/
def leakyAll (a b : FVec F S900000x1 .f32) : FVec F S900000x1 .f32 :=
  select (cmpf .oge (addf a b) (broadcast S900000x1 (Scalar.ofBits .f32 0x00000000#32))) (addf a b)
    (mulf (broadcast S900000x1 (Scalar.ofBits .f32 0x3C23D70A#32)) (addf a b))

/-- Third tiled stage, first output: exp(logit − gmax), gmax the one entry of a 1 × 1 array. -/
def expAll (lg : FVec F S900000x1 .f32) (gm : FVec F S1x1 .f32) : FVec F S900000x1 .f32 :=
  exp (subf lg (broadcast S900000x1 (extractAt ![0, 0] gm inpos_S1x1_p0_0)))

/-- Third tiled stage, second output: entry (t, j) is e(t) · hd(t, j). -/
def contribAll (lg : FVec Ideal S900000x1 .f32) (hd : FVec Ideal S900000x128 .f32) (gm : FVec Ideal S1x1 .f32) : FVec Ideal S900000x128 .f32 :=
  fun i => expAll lg gm (ix2 (i 0) (0 : Fin 1)) * hd i

/-! ## Host stretch between the second and third tiled stages: the global maximum -/

/-- The maximum of all logits (from −∞), as a 1 × 1 array. -/
def gmaxOf (lg : FVec F S900000x1 .f32) : FVec F S1x1 .f32 :=
  shapeCast S1x1 (Host.reduce FloatOps.maximumf lg (constant S_ .f32 0xFF800000#32) reducesTo_S900000x1_S_d0_1 h_S_) shapeCasts_S_S1x1

/-! ## Host stretch after the last tiled stage: segment sums, quotient, residual -/

/-- out(n, j) = (Σ_{edges t with source n} ct(t, j)) / ((Σ_{edges t with source n} e(t)) + ε) + x(n, j). -/
def tailOf (e : FVec F S900000x1 .f32) (ct : FVec F S900000x128 .f32) (src : IVec S900000 32) (x : FVec F S100000x128 .f32) : FVec F S100000x128 .f32 :=
  addf (Host.divf
      (Host.scatterAdd scatter_S100000x128_S900000x1_S900000x128_1_0_0_1
        (broadcastInDim S100000x128 ![] bcast_S_S100000x128 (constant S_ .f32 0x00000000#32))
        (broadcastInDim S900000x1 ![0] bcast_S900000_S900000x1_0 src) ct)
      (broadcastInDim S100000x128 ![0, 1] bcast_S100000x1_S100000x128_0_1
        (addf (broadcastInDim S100000x1 ![0] bcast_S100000_S100000x1_0
            (Host.scatterAdd scatter_S100000_S900000x1_S900000_n_0_0_1
              (broadcastInDim S100000 ![] bcast_S_S100000 (constant S_ .f32 0x00000000#32))
              (broadcastInDim S900000x1 ![0] bcast_S900000_S900000x1_0 src)
              (shapeCast S900000 e shapeCasts_S900000x1_S900000)))
          (broadcastInDim S100000x1 ![] bcast_S_S100000x1 (constant S_ .f32 0x322BCC77#32)))))
    x

/-! ## The whole program's value -/

/-- The kernel program's result as a function of its four arguments. -/
def kerOut (x : FVec Ideal S100000x128 .f32) (ei : IVec S2x800000 32) (w : FVec Ideal S128x128 .f32) (att : FVec Ideal S256x1 .f32) :
    FVec Ideal S100000x128 .f32 :=
  let hext := projAll x (wext w att)
  let lg := leakyAll (gatherCol (scoreCol128 hext) (srcAll ei)) (gatherCol (scoreCol129 hext) (dstAll ei))
  let hd := gatherRows (featCols hext) (dstAll ei)
  let gm := gmaxOf lg
  tailOf (expAll lg gm) (contribAll lg hd gm) (srcAll ei) x

end Cert.KernelIdeal.KVal

end
-- ==== Proof.KRegion0.lean ====
/-
  The first tiled stage as one whole-array function.

  The stage is a matrix product: the node array x (100000 × 128) times the extended weight matrix w (128 × 256),
  computed in 20 row blocks of 5000 rows. Each grid point reads its 5000 × 128 block of x and the whole of w and
  writes the 5000 × 256 block of the product. Here: the block product read at an entry is the sum over the
  contracted axis; what a grid point writes back is its row block of the whole product; the 20 row blocks cover
  the array; so the array ends holding the whole product.
-/
import proofs.«161476_j38508676776169_1_alg».proof.Proof.Gen.KernelIdeal.Frame
import proofs.«161476_j38508676776169_1_alg».proof.Proof.KDefs
import Idealize.ShloMosaic.Lib.Pipeline.Value
import Idealize.ShloMosaic.Lib.ValueIdx
import Idealize.ShloMosaic.PureOps.Ideal.Laws

set_option maxRecDepth 16384

noncomputable section

namespace Cert.KernelIdeal.KRegion0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

/-! ## The block product at an entry -/

/-- The row operand's index at output index `i` and contraction position `q`: its row is the output's row. -/
theorem lhs_row (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl

/-- Its column is the contraction position. -/
theorem lhs_col (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q

/-- The column operand's index: its row is the contraction position. -/
theorem rhs_row (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q

/-- Its column is the output's column. -/
theorem rhs_col (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The body's payload at entry (p, q): a change of float format is the identity at the extended reals, the cast to
    the same shape is the identity, and the product into the zero accumulator is the sum over the contracted axis. -/
theorem pay_apply (x0 : Vec Ideal S5000x128 .f32) (x1 : Vec Ideal S128x256 .f32) (p : Fin 5000) (q : Fin 256) :
    (k0_pay1 (F := Ideal) x0 x1) (ix2 p q) = ∑ k : Fin 128, x0 (ix2 p k) * x1 (ix2 k q) := by
  unfold k0_pay1
  simp only [matmul]
  rw [shapeCast_self, Ideal.matmul_constant_zero_apply,
    ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x256_S5000x256_1_0_0_1_n_n.rhsIdx (ix2 p q) ((contrEquiv1 dot_S5000x128_S128x256_S5000x256_1_0_0_1_n_n 128 rfl rfl).symm k) = ix2 k q :=
    funext fun a => Fin.ext (by
      match a with
      | ⟨0, _⟩ => exact (rhs_row _ _).trans hk
      | ⟨1, _⟩ => exact rhs_col _ _)
  rw [el, er]
  rfl

/-- Entry (p, q) of a block product whose row operand holds, at row p, row `i 0` of x and whose column operand
    holds, at column q, column `i 1` of w: entry `i` of the whole product. -/
theorem block_product_entry (x : FVec Ideal S100000x128 .f32) (w : FVec Ideal S128x256 .f32)
    (x0 : Vec Ideal S5000x128 .f32) (x1 : Vec Ideal S128x256 .f32) (p : Fin 5000) (q : Fin 256) (i : S100000x256.Idx)
    (hx : ∀ k : Fin 128, x0 (ix2 p k) = x (ix2 (i 0) k)) (hw : ∀ k : Fin 128, x1 (ix2 k q) = w (ix2 k (i 1))) :
    k0_pay1 (F := Ideal) x0 x1 (ix2 p q) = KVal.projAll x w i := by
  rw [pay_apply]
  unfold KVal.projAll
  exact Finset.sum_congr rfl fun k _ => by rw [hx k, hw k]

/-! ## From the row blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the grid: point t's row block of x and of the product is block t, in the
    one column block; the weight matrix is one block. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- WHAT POINT `t` WRITES BACK is block `t` of the whole product of the two arrays as the region finds them. -/
theorem flushed_eq (c : Dev nD) (t : Fin cfg0.N) :
    (dat0 (F := Ideal) V c).flushed 2 t
      = ((cfg0.win 2).blk t).view.read (Elt Ideal) (KVal.projAll (V c main_arg0) (V c main_v12)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x256) zero_offsets]
  obtain ⟨e0, e1, e2, e3, e4, e5⟩ := block_indices t
  funext j
  obtain ⟨p, q, rfl⟩ : ∃ (p : Fin 5000) (q : Fin 256), j = ix2 p q := ⟨j 0, j 1, eq_ix2 j⟩
  show k0_pay1 (F := Ideal) (iblk0 V c 0 t) (iblk0 V c 1 t) (ix2 p q)
    = KVal.projAll (V c main_arg0) (V c main_v12) (((cfg0.win 2).blk t).view.emb (ix2 p q))
  refine block_product_entry _ _ _ _ p q _ (fun k => ?_) (fun k => ?_)
  · show V c main_arg0 (((cfg0.win 0).blk t).view.emb (ix2 p k))
      = V c main_arg0 (ix2 ((((cfg0.win 2).blk t).view.emb (ix2 p q)) 0) k)
    refine congrArg (V c main_arg0) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · show V c main_v12 (((cfg0.win 1).blk t).view.emb (ix2 k q))
      = V c main_v12 (ix2 k ((((cfg0.win 2).blk t).view.emb (ix2 p q)) 1))
    refine congrArg (V c main_v12) ?_
    funext a; apply Fin.ext
    match a with
    | ⟨0, _⟩ => show win0_1.index t (0 : Fin 2) * 128 + 1 * k.val = k.val; omega
    | ⟨1, _⟩ => show win0_1.index t (1 : Fin 2) * 256 + 1 * q.val = win0_2.index t (1 : Fin 2) * 256 + 1 * q.val; omega

/-- An index of the array is in point `t`'s block iff each coordinate is in the block's range on its axis. -/
theorem mem_block (t : Fin cfg0.N) (i : S100000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v13).slice (win0_2.rect t)).set ↔ _
  rw [View.set_slice_whole, Rect.mem_set_unit]
  exact Iff.rfl

/-- The 20 row blocks cover the array: row r is in block r / 5000. -/
theorem covered (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨e0, e1, e2, e3, e4, e5⟩ := block_indices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- THE ARRAY after the region: the whole product of the node array and the extended weight matrix. -/
theorem final0 (c : Dev nD) : (dat0 (F := Ideal) V c).arrAt 2 cfg0.N = KVal.projAll (V c main_arg0) (V c main_v12) :=
  (dat0 (F := Ideal) V c).arrAt_eq_of_cover 2 (KVal.projAll (V c main_arg0) (V c main_v12)) (fun t _ => flushed_eq V c t) covered

end Cert.KernelIdeal.KRegion0

end
-- ==== Proof.KRegion1.lean ====
import proofs.«161476_j38508676776169_1_alg».proof.Proof.Gen.KernelIdeal.Frame
import proofs.«161476_j38508676776169_1_alg».proof.Proof.KDefs
import Idealize.ShloMosaic.Lib.Pipeline.Value
import Idealize.ShloMosaic.Lib.ValueIdx
import Idealize.ShloMosaic.PureOps.Ideal.Laws

set_option maxRecDepth 16384

noncomputable section

namespace Cert.KernelIdeal.KRegion1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable (V : (c : Dev nD) → (b : Ref sig .tc) → Buf (Elt Ideal) ((c : Thread nD τ).loc b))

/-! # The second tiled stage as a whole-array function

The stage runs over 75 grid points; at point `t` it reads rows `12000 t … 12000 t + 11999` of its two one-column
operands, applies the leaky-relu of their sum entry by entry, and writes the same rows of its result. Entry by entry
that is `KVal.leakyAll` of the two operand arrays, and the 75 row blocks tile the 900000 rows, so the result array
ends holding `KVal.leakyAll` of the operands. -/

/-- The two zero offsets, spelt as a constant function. -/
theorem zero_offsets : (![0, 0] : Fin 2 → Nat) = fun _ => 0 := funext fun a => by fin_cases a <;> rfl

/-- The number of grid points. -/
theorem points_eq : cfg1.N = 75 := N_1

/-- The three index maps, decided over the 75 points: at point `t` every window sits at row block `t`, column block `0`. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The leaky-relu of a sum, on two entries: `s = u + v`, and `s` where `s ≥ 0`, else slope · `s`. -/
def leakyAt (u v : Ideal .f32) : Ideal .f32 :=
  Scalar.select (FloatOps.cmpf .oge (FloatOps.addf u v) (FloatOps.ofBits .f32 0x00000000#32)) (FloatOps.addf u v)
    (FloatOps.mulf (FloatOps.ofBits .f32 0x3C23D70A#32) (FloatOps.addf u v))

/-- The body's payload, entry by entry, is that function of the two blocks' entries (the two shape casts are to the
    blocks' own shape). -/
theorem payload_at (x0 x1 : Vec Ideal S12000x1 .f32) (j : S12000x1.Idx) :
    k1_pay1 x0 x1 j = leakyAt (x0 j) (x1 j) := by
  unfold k1_pay1
  simp only [shapeCast_self]
  rfl

/-- The whole-array function, entry by entry, is the same function of the two arrays' entries. -/
theorem leakyAll_at (a b : FVec Ideal S900000x1 .f32) (i : S900000x1.Idx) :
    KVal.leakyAll (F := Ideal) a b i = leakyAt (a i) (b i) := rfl

/-- So the payload at an entry of the block is the whole-array function at any entry of the arrays where the two
    blocks agree with the two arrays. -/
theorem payload_apply (x0 x1 : Vec Ideal S12000x1 .f32) (a b : FVec Ideal S900000x1 .f32)
    (j : S12000x1.Idx) (i : S900000x1.Idx) (h0 : x0 j = a i) (h1 : x1 j = b i) :
    k1_pay1 x0 x1 j = KVal.leakyAll (F := Ideal) a b i := by
  rw [payload_at, leakyAll_at, h0, h1]

/-- WHAT POINT `t` WRITES BACK is block `t` of the whole-array leaky-relu of the two operand arrays. -/
theorem flushed_eq (c : Dev nD) (t : Fin cfg1.N) :
    (dat1 (F := Ideal) V c).flushed 2 t
      = ((cfg1.win 2).blk t).view.read (Elt Ideal) (KVal.leakyAll (F := Ideal) (V c main_v33) (V c main_v41)) := by
  show (cfg1.win 2).cut (grid1.coords t) ((dat1 (F := Ideal) V c).after 2 t) = _
  rw [after1_2]
  unfold out1_2
  rw [View.canon_unit_zero zero_offsets]
  simp only [View.ld_unit_zero (S := S12000x1) zero_offsets]
  obtain ⟨e0, e1, e2, e3, e4, e5⟩ := block_index t
  funext j
  show k1_pay1 (iblk1 V c 0 t) (iblk1 V c 1 t) j
    = KVal.leakyAll (F := Ideal) (V c main_v33) (V c main_v41) (((cfg1.win 2).blk t).view.emb j)
  refine payload_apply (iblk1 V c 0 t) (iblk1 V c 1 t) (V c main_v33) (V c main_v41) j _ ?_ ?_
  · show V c main_v33 (((cfg1.win 0).blk t).view.emb j) = V c main_v33 (((cfg1.win 2).blk t).view.emb j)
    have h : ((cfg1.win 0).blk t).view.emb j = ((cfg1.win 2).blk t).view.emb j := by
      funext a; apply Fin.ext
      match a with
      | ⟨0, _⟩ => show win1_0.index t (0 : Fin 2) * 12000 + 1 * (j 0).val = win1_2.index t (0 : Fin 2) * 12000 + 1 * (j 0).val; omega
      | ⟨1, _⟩ => show win1_0.index t (1 : Fin 2) * 1 + 1 * (j 1).val = win1_2.index t (1 : Fin 2) * 1 + 1 * (j 1).val; omega
    rw [h]
  · show V c main_v41 (((cfg1.win 1).blk t).view.emb j) = V c main_v41 (((cfg1.win 2).blk t).view.emb j)
    have h : ((cfg1.win 1).blk t).view.emb j = ((cfg1.win 2).blk t).view.emb j := by
      funext a; apply Fin.ext
      match a with
      | ⟨0, _⟩ => show win1_1.index t (0 : Fin 2) * 12000 + 1 * (j 0).val = win1_2.index t (0 : Fin 2) * 12000 + 1 * (j 0).val; omega
      | ⟨1, _⟩ => show win1_1.index t (1 : Fin 2) * 1 + 1 * (j 1).val = win1_2.index t (1 : Fin 2) * 1 + 1 * (j 1).val; omega
    rw [h]

/-- An entry of the result array is in point `t`'s block iff each coordinate is in the block's range on its axis. -/
theorem mem_block (t : Fin cfg1.N) (i : S900000x1.Idx) :
    i ∈ ((cfg1.win 2).blk t).view.set
      ↔ ∀ a : Fin 2, win1_2.index t a * S12000x1.size a ≤ (i a).val
          ∧ (i a).val < win1_2.index t a * S12000x1.size a + S12000x1.size a := by
  show i ∈ ((View.whole main_v49).slice (win1_2.rect t)).set ↔ _
  rw [View.set_slice_whole, Rect.mem_set_unit]
  exact Iff.rfl

/-- EVERY ENTRY IS COVERED: row `r` lies in the block of point `r / 12000`, which writes back. -/
theorem covered (i : S900000x1.Idx) :
    ∃ t : Fin cfg1.N, (cfg1.win 2).flush t = true ∧ i ∈ ((cfg1.win 2).blk t).view.set := by
  have hi0 : (i 0).val < 900000 := (i 0).isLt
  have hi1 : (i 1).val < 1 := (i 1).isLt
  have hN : cfg1.N = 75 := points_eq
  let t : Fin cfg1.N := ⟨(i 0).val / 12000, by rw [hN]; omega⟩
  have ht : t.val = (i 0).val / 12000 := rfl
  obtain ⟨-, -, -, -, e4, e5⟩ := block_index t
  refine ⟨t, flush1_2 t, ?_⟩
  rw [mem_block]
  intro a
  match a with
  | ⟨0, _⟩ =>
    show win1_2.index t (0 : Fin 2) * 12000 ≤ (i 0).val ∧ (i 0).val < win1_2.index t (0 : Fin 2) * 12000 + 12000
    omega
  | ⟨1, _⟩ =>
    show win1_2.index t (1 : Fin 2) * 1 ≤ (i 1).val ∧ (i 1).val < win1_2.index t (1 : Fin 2) * 1 + 1
    omega

/-- THE RESULT ARRAY after the stage is the whole-array leaky-relu of the two operand arrays. -/
theorem final1 (c : Dev nD) :
    (dat1 (F := Ideal) V c).arrAt 2 cfg1.N = KVal.leakyAll (F := Ideal) (V c main_v33) (V c main_v41) :=
  (dat1 (F := Ideal) V c).arrAt_eq_of_cover 2 (KVal.leakyAll (F := Ideal) (V c main_v33) (V c main_v41))
    (fun t _ => flushed_eq V c t) covered

end Cert.KernelIdeal.KRegion1

end
-- ==== Proof.KRegion2.lean ====
import proofs.«161476_j38508676776169_1_alg».proof.Proof.Gen.KernelIdeal.Frame
import proofs.«161476_j38508676776169_1_alg».proof.Proof.KDefs
import Idealize.ShloMosaic.Lib.Pipeline.Value
import Idealize.ShloMosaic.Lib.ValueIdx
import Idealize.ShloMosaic.PureOps.Ideal.Laws

set_option maxRecDepth 16384

noncomputable section

namespace Cert.KernelIdeal.KRegion2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable (V : (c : Dev nD) → (b : Ref sig .tc) → Buf (Elt Ideal) ((c : Thread nD τ).loc b))

/-! # The third tiled stage as whole-array functions

The stage runs over 75 grid points; at point `t` it reads rows `12000 t … 12000 t + 11999` of the one-column logits and
of the 128-column gathered features, and the single entry `g` of a 1 × 1 array. It writes the same rows of two results:
`e = exp (logit − g)`, one column, and `e · h`, 128 columns, where `e`'s column is stretched over the 128 columns.
Entry by entry these are `KVal.expAll` and `KVal.contribAll` of the operand arrays, and the 75 row blocks tile the
900000 rows of each result, so the result arrays end holding those two functions. -/

/-- The two zero offsets, spelt as a constant function. -/
theorem zero_offsets : (![0, 0] : Fin 2 → Nat) = fun _ => 0 := funext fun a => by fin_cases a <;> rfl

/-- The number of grid points. -/
theorem points_eq : cfg2.N = 75 := N_2

/-- The five index maps, decided over the 75 points: at point `t` the row-blocked windows sit at row block `t`, column
    block `0`, and the 1 × 1 window at its only block. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-! ## The payloads, entry by entry -/

/-- `exp (u − g)` on two entries. -/
def expAt (u g : Ideal .f32) : Ideal .f32 := FloatOps.exp (FloatOps.subf u g)

/-- The first payload, entry by entry, is that function of the logit block's entry and the 1 × 1 block's entry (the
    shape cast is to the block's own shape). -/
theorem payload_exp_at (g : Vec Ideal S1x1 .f32) (x : Vec Ideal S12000x1 .f32) (j : S12000x1.Idx) :
    k2_pay1 g x j = expAt (x j) (extractAt ![0, 0] g inpos_S1x1_p0_0) := by
  unfold k2_pay1
  simp only [shapeCast_self]
  rfl

/-- The whole-array exponential, entry by entry, is the same function of the logit array's entry and the 1 × 1
    array's entry. -/
theorem expAll_at (lg : FVec Ideal S900000x1 .f32) (gm : FVec Ideal S1x1 .f32) (i : S900000x1.Idx) :
    KVal.expAll (F := Ideal) lg gm i = expAt (lg i) (extractAt ![0, 0] gm inpos_S1x1_p0_0) := rfl

/-- So the first payload at an entry of the block is the whole-array exponential at any entry of the array where the
    logit block agrees with the logit array, the 1 × 1 block being the 1 × 1 array. -/
theorem payload_exp_apply (g : Vec Ideal S1x1 .f32) (x : Vec Ideal S12000x1 .f32)
    (lg : FVec Ideal S900000x1 .f32) (gm : FVec Ideal S1x1 .f32) (j : S12000x1.Idx) (i : S900000x1.Idx)
    (hg : g = gm) (hx : x j = lg i) : k2_pay1 g x j = KVal.expAll (F := Ideal) lg gm i := by
  rw [payload_exp_at, expAll_at, hg, hx]

/-- The second payload at entry `(p, q)` is the first payload at `(p, 0)` times the feature block's entry `(p, q)`:
    the stretched column reads its row's one entry, and the product at the extended reals is the product. -/
theorem payload_contrib_at (g : Vec Ideal S1x1 .f32) (x : Vec Ideal S12000x1 .f32) (h : Vec Ideal S12000x128 .f32)
    (p : Fin 12000) (q : Fin 128) :
    k2_pay2 g x h (ix2 p q) = k2_pay1 g x (ix2 p (0 : Fin 1)) * h (ix2 p q) := by
  unfold k2_pay2
  simp only [shapeCast_self]
  show FloatOps.mulf (broadcastTo S12000x128 (k2_pay1 g x) broadcasts_S12000x1_S12000x128 (ix2 p q)) (h (ix2 p q)) = _
  rw [Ideal.mulf_def, broadcastTo_apply (k2_pay1 g x) broadcasts_S12000x1_S12000x128 (ix2 p q) (ix2 p (0 : Fin 1))
    (fun a => by match a with | ⟨0, _⟩ => rfl | ⟨1, _⟩ => rfl)]

/-- So the second payload at an entry of the block is the whole-array product at any entry of the array where the
    logit block at the entry's row agrees with the logit array at that entry's row and the feature block agrees with
    the feature array, the 1 × 1 block being the 1 × 1 array. -/
theorem payload_contrib_apply (g : Vec Ideal S1x1 .f32) (x : Vec Ideal S12000x1 .f32) (h : Vec Ideal S12000x128 .f32)
    (lg : FVec Ideal S900000x1 .f32) (hd : FVec Ideal S900000x128 .f32) (gm : FVec Ideal S1x1 .f32)
    (j : S12000x128.Idx) (i : S900000x128.Idx) (hg : g = gm)
    (hx : x (ix2 (j 0) (0 : Fin 1)) = lg (ix2 (i 0) (0 : Fin 1))) (hh : h j = hd i) :
    k2_pay2 g x h j = KVal.contribAll lg hd gm i := by
  obtain ⟨p, q, rfl⟩ : ∃ (p : Fin 12000) (q : Fin 128), j = ix2 p q := ⟨j 0, j 1, eq_ix2 j⟩
  rw [payload_contrib_at, payload_exp_apply g x lg gm (ix2 p (0 : Fin 1)) (ix2 (i 0) (0 : Fin 1)) hg hx, hh]
  rfl

/-! ## The blocks read -/

/-- The 1 × 1 window's block at every point is the whole 1 × 1 array. -/
theorem gmax_block (c : Dev nD) (t : Fin cfg2.N) : (iblk2 V c 2 t : Vec Ideal S1x1 .f32) = V c main_v51 := by
  obtain ⟨-, -, -, -, e4, e5, -, -, -, -⟩ := block_index t
  funext y
  show V c main_v51 (((cfg2.win 2).blk t).view.emb y) = V c main_v51 y
  have h : ((cfg2.win 2).blk t).view.emb y = y := by
    funext a; apply Fin.ext
    match a with
    | ⟨0, _⟩ => show win2_2.index t (0 : Fin 2) * 1 + 1 * (y 0).val = (y 0).val; omega
    | ⟨1, _⟩ => show win2_2.index t (1 : Fin 2) * 1 + 1 * (y 1).val = (y 1).val; omega
  rw [h]

/-! ## Output window 3: the exponentials -/

/-- WHAT POINT `t` WRITES BACK to the first result is block `t` of the whole-array exponential. -/
theorem flushed3_eq (c : Dev nD) (t : Fin cfg2.N) :
    (dat2 (F := Ideal) V c).flushed 3 t
      = ((cfg2.win 3).blk t).view.read (Elt Ideal) (KVal.expAll (F := Ideal) (V c main_v49) (V c main_v51)) := by
  show (cfg2.win 3).cut (grid2.coords t) ((dat2 (F := Ideal) V c).after 3 t) = _
  rw [after2_3]
  unfold out2_3
  rw [View.canon_unit_zero zero_offsets]
  simp only [View.ld_unit_zero (S := S12000x1) zero_offsets, View.ld_unit_zero (S := S1x1) zero_offsets]
  obtain ⟨e0, e1, -, -, -, -, e6, e7, -, -⟩ := block_index t
  funext j
  show k2_pay1 (iblk2 V c 2 t) (iblk2 V c 0 t) j
    = KVal.expAll (F := Ideal) (V c main_v49) (V c main_v51) (((cfg2.win 3).blk t).view.emb j)
  refine payload_exp_apply (iblk2 V c 2 t) (iblk2 V c 0 t) (V c main_v49) (V c main_v51) j _ (gmax_block V c t) ?_
  show V c main_v49 (((cfg2.win 0).blk t).view.emb j) = V c main_v49 (((cfg2.win 3).blk t).view.emb j)
  have h : ((cfg2.win 0).blk t).view.emb j = ((cfg2.win 3).blk t).view.emb j := by
    funext a; apply Fin.ext
    match a with
    | ⟨0, _⟩ => show win2_0.index t (0 : Fin 2) * 12000 + 1 * (j 0).val = win2_3.index t (0 : Fin 2) * 12000 + 1 * (j 0).val; omega
    | ⟨1, _⟩ => show win2_0.index t (1 : Fin 2) * 1 + 1 * (j 1).val = win2_3.index t (1 : Fin 2) * 1 + 1 * (j 1).val; omega
  rw [h]

/-- An entry of the first result is in point `t`'s block iff each coordinate is in the block's range on its axis. -/
theorem mem_block3 (t : Fin cfg2.N) (i : S900000x1.Idx) :
    i ∈ ((cfg2.win 3).blk t).view.set
      ↔ ∀ a : Fin 2, win2_3.index t a * S12000x1.size a ≤ (i a).val
          ∧ (i a).val < win2_3.index t a * S12000x1.size a + S12000x1.size a := by
  show i ∈ ((View.whole main_v52_0).slice (win2_3.rect t)).set ↔ _
  rw [View.set_slice_whole, Rect.mem_set_unit]
  exact Iff.rfl

/-- EVERY ENTRY of the first result IS COVERED: row `r` lies in the block of point `r / 12000`, which writes back. -/
theorem covered3 (i : S900000x1.Idx) :
    ∃ t : Fin cfg2.N, (cfg2.win 3).flush t = true ∧ i ∈ ((cfg2.win 3).blk t).view.set := by
  have hi0 : (i 0).val < 900000 := (i 0).isLt
  have hi1 : (i 1).val < 1 := (i 1).isLt
  have hN : cfg2.N = 75 := points_eq
  let t : Fin cfg2.N := ⟨(i 0).val / 12000, by rw [hN]; omega⟩
  have ht : t.val = (i 0).val / 12000 := rfl
  obtain ⟨-, -, -, -, -, -, e6, e7, -, -⟩ := block_index t
  refine ⟨t, flush2_3 t, ?_⟩
  rw [mem_block3]
  intro a
  match a with
  | ⟨0, _⟩ =>
    show win2_3.index t (0 : Fin 2) * 12000 ≤ (i 0).val ∧ (i 0).val < win2_3.index t (0 : Fin 2) * 12000 + 12000
    omega
  | ⟨1, _⟩ =>
    show win2_3.index t (1 : Fin 2) * 1 ≤ (i 1).val ∧ (i 1).val < win2_3.index t (1 : Fin 2) * 1 + 1
    omega

/-- THE FIRST RESULT ARRAY after the stage is the whole-array exponential of the logits less the 1 × 1 array's entry. -/
theorem final2_3 (c : Dev nD) :
    (dat2 (F := Ideal) V c).arrAt 3 cfg2.N = KVal.expAll (F := Ideal) (V c main_v49) (V c main_v51) :=
  (dat2 (F := Ideal) V c).arrAt_eq_of_cover 3 (KVal.expAll (F := Ideal) (V c main_v49) (V c main_v51))
    (fun t _ => flushed3_eq V c t) covered3

/-! ## Output window 4: the exponentials times the features -/

/-- WHAT POINT `t` WRITES BACK to the second result is block `t` of the whole-array product. -/
theorem flushed4_eq (c : Dev nD) (t : Fin cfg2.N) :
    (dat2 (F := Ideal) V c).flushed 4 t
      = ((cfg2.win 4).blk t).view.read (Elt Ideal) (KVal.contribAll (V c main_v49) (V c main_v48) (V c main_v51)) := by
  show (cfg2.win 4).cut (grid2.coords t) ((dat2 (F := Ideal) V c).after 4 t) = _
  rw [after2_4]
  unfold out2_4
  rw [View.canon_unit_zero zero_offsets]
  simp only [View.ld_unit_zero (S := S12000x1) zero_offsets, View.ld_unit_zero (S := S1x1) zero_offsets,
    View.ld_unit_zero (S := S12000x128) zero_offsets]
  obtain ⟨e0, e1, e2, e3, -, -, -, -, e8, e9⟩ := block_index t
  funext j
  show k2_pay2 (iblk2 V c 2 t) (iblk2 V c 0 t) (iblk2 V c 1 t) j
    = KVal.contribAll (V c main_v49) (V c main_v48) (V c main_v51) (((cfg2.win 4).blk t).view.emb j)
  refine payload_contrib_apply (iblk2 V c 2 t) (iblk2 V c 0 t) (iblk2 V c 1 t) (V c main_v49) (V c main_v48)
    (V c main_v51) j _ (gmax_block V c t) ?_ ?_
  · show V c main_v49 (((cfg2.win 0).blk t).view.emb (ix2 (j 0) (0 : Fin 1)))
      = V c main_v49 (ix2 ((((cfg2.win 4).blk t).view.emb j) 0) (0 : Fin 1))
    have h : ((cfg2.win 0).blk t).view.emb (ix2 (j 0) (0 : Fin 1))
        = ix2 ((((cfg2.win 4).blk t).view.emb j) 0) (0 : Fin 1) := by
      funext a; apply Fin.ext
      match a with
      | ⟨0, _⟩ => show win2_0.index t (0 : Fin 2) * 12000 + 1 * (j 0).val = win2_4.index t (0 : Fin 2) * 12000 + 1 * (j 0).val; omega
      | ⟨1, _⟩ => show win2_0.index t (1 : Fin 2) * 1 + 1 * 0 = 0; omega
    exact congrArg (V c main_v49) h
  · show V c main_v48 (((cfg2.win 1).blk t).view.emb j) = V c main_v48 (((cfg2.win 4).blk t).view.emb j)
    have h : ((cfg2.win 1).blk t).view.emb j = ((cfg2.win 4).blk t).view.emb j := by
      funext a; apply Fin.ext
      match a with
      | ⟨0, _⟩ => show win2_1.index t (0 : Fin 2) * 12000 + 1 * (j 0).val = win2_4.index t (0 : Fin 2) * 12000 + 1 * (j 0).val; omega
      | ⟨1, _⟩ => show win2_1.index t (1 : Fin 2) * 128 + 1 * (j 1).val = win2_4.index t (1 : Fin 2) * 128 + 1 * (j 1).val; omega
    rw [h]

/-- An entry of the second result is in point `t`'s block iff each coordinate is in the block's range on its axis. -/
theorem mem_block4 (t : Fin cfg2.N) (i : S900000x128.Idx) :
    i ∈ ((cfg2.win 4).blk t).view.set
      ↔ ∀ a : Fin 2, win2_4.index t a * S12000x128.size a ≤ (i a).val
          ∧ (i a).val < win2_4.index t a * S12000x128.size a + S12000x128.size a := by
  show i ∈ ((View.whole main_v52_1).slice (win2_4.rect t)).set ↔ _
  rw [View.set_slice_whole, Rect.mem_set_unit]
  exact Iff.rfl

/-- EVERY ENTRY of the second result IS COVERED: row `r` lies in the block of point `r / 12000`, which writes back. -/
theorem covered4 (i : S900000x128.Idx) :
    ∃ t : Fin cfg2.N, (cfg2.win 4).flush t = true ∧ i ∈ ((cfg2.win 4).blk t).view.set := by
  have hi0 : (i 0).val < 900000 := (i 0).isLt
  have hi1 : (i 1).val < 128 := (i 1).isLt
  have hN : cfg2.N = 75 := points_eq
  let t : Fin cfg2.N := ⟨(i 0).val / 12000, by rw [hN]; omega⟩
  have ht : t.val = (i 0).val / 12000 := rfl
  obtain ⟨-, -, -, -, -, -, -, -, e8, e9⟩ := block_index t
  refine ⟨t, flush2_4 t, ?_⟩
  rw [mem_block4]
  intro a
  match a with
  | ⟨0, _⟩ =>
    show win2_4.index t (0 : Fin 2) * 12000 ≤ (i 0).val ∧ (i 0).val < win2_4.index t (0 : Fin 2) * 12000 + 12000
    omega
  | ⟨1, _⟩ =>
    show win2_4.index t (1 : Fin 2) * 128 ≤ (i 1).val ∧ (i 1).val < win2_4.index t (1 : Fin 2) * 128 + 128
    omega

/-- THE SECOND RESULT ARRAY after the stage is the whole-array product of the exponentials and the features. -/
theorem final2_4 (c : Dev nD) :
    (dat2 (F := Ideal) V c).arrAt 4 cfg2.N = KVal.contribAll (V c main_v49) (V c main_v48) (V c main_v51) :=
  (dat2 (F := Ideal) V c).arrAt_eq_of_cover 4 (KVal.contribAll (V c main_v49) (V c main_v48) (V c main_v51))
    (fun t _ => flushed4_eq V c t) covered4

end Cert.KernelIdeal.KRegion2

end
-- ==== Proof.KValue.lean ====
import proofs.«161476_j38508676776169_1_alg».proof.Proof.Gen.KernelIdeal.Frame
import proofs.«161476_j38508676776169_1_alg».proof.Proof.KDefs
import Idealize.ShloMosaic.Lib.StableHlo.Run

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.StableHlo

/-!
# The kernel program's result array as a closed function of the four arguments

The program runs four stretches of host operations around three tiled stages. The buffer contents at each boundary
are a fold from the launch memory; this module reads, boundary by boundary and buffer by buffer, what the fold holds:
a host stretch's result is the composition of its printed operations applied to the contents its operands had when
the stretch was entered, a tiled stage's output array is the whole-array function the stage computes (a hypothesis
here), and every other buffer is carried unchanged. Composing the reads from the launch forward gives the value
`KVal.kerOut` at the result buffer.
-/

/-! ## The host stretches, over any entry contents

Each stretch's fold, read at one buffer, is the literal composition of the stretch's operations on the entry contents
of the buffers it reads; a buffer the stretch does not write keeps its entry contents. The scatters, gathers, the
reduction and the concatenation are kept closed while the two sides are compared: the equations never look inside
them. -/

section Stretches

attribute [local irreducible] Host.scatter Host.gather Host.scatterAdd Host.reduce concatenate

variable (V : Valuation τ sig (Elt Ideal))

/-- First stretch: the extended weight matrix from the weight and the attention vector. -/
theorem stretch0_v12 :
    after (hostOps0 (F := Ideal)) V (Proc.devRef .tc main_v12)
      = KVal.wext (F := Ideal) (V (Proc.devRef .tc main_arg2)) (V (Proc.devRef .tc main_arg3)) := by
  after_results_simp
  rfl
theorem stretch0_arg0 : after (hostOps0 (F := Ideal)) V (Proc.devRef .tc main_arg0) = V (Proc.devRef .tc main_arg0) := by
  after_results_simp
theorem stretch0_arg1 : after (hostOps0 (F := Ideal)) V (Proc.devRef .tc main_arg1) = V (Proc.devRef .tc main_arg1) := by
  after_results_simp

/-- Second stretch: the source list of the edges, -/
theorem stretch1_v22 :
    after (hostOps1 (F := Ideal)) V (Proc.devRef .tc main_v22) = KVal.srcAll (V (Proc.devRef .tc main_arg1)) := by
  after_results_simp
  rfl
/-- the first score gathered along the sources, -/
theorem stretch1_v33 :
    after (hostOps1 (F := Ideal)) V (Proc.devRef .tc main_v33)
      = KVal.gatherCol (F := Ideal) (KVal.scoreCol128 (V (Proc.devRef .tc main_v13))) (KVal.srcAll (V (Proc.devRef .tc main_arg1))) := by
  after_results_simp
  rfl
/-- the second score gathered along the destinations, -/
theorem stretch1_v41 :
    after (hostOps1 (F := Ideal)) V (Proc.devRef .tc main_v41)
      = KVal.gatherCol (F := Ideal) (KVal.scoreCol129 (V (Proc.devRef .tc main_v13))) (KVal.dstAll (V (Proc.devRef .tc main_arg1))) := by
  after_results_simp
  rfl
/-- and the projected feature rows gathered along the destinations. -/
theorem stretch1_v48 :
    after (hostOps1 (F := Ideal)) V (Proc.devRef .tc main_v48)
      = KVal.gatherRows (F := Ideal) (KVal.featCols (V (Proc.devRef .tc main_v13))) (KVal.dstAll (V (Proc.devRef .tc main_arg1))) := by
  after_results_simp
  rfl
theorem stretch1_arg0 : after (hostOps1 (F := Ideal)) V (Proc.devRef .tc main_arg0) = V (Proc.devRef .tc main_arg0) := by
  after_results_simp

/-- Third stretch: the maximum of the logits; the logits, the gathered rows, the sources and the node features are
    carried. -/
theorem stretch2_v51 :
    after (hostOps2 (F := Ideal)) V (Proc.devRef .tc main_v51) = KVal.gmaxOf (F := Ideal) (V (Proc.devRef .tc main_v49)) := by
  after_results_simp
  rfl
theorem stretch2_v49 : after (hostOps2 (F := Ideal)) V (Proc.devRef .tc main_v49) = V (Proc.devRef .tc main_v49) := by
  after_results_simp
theorem stretch2_v48 : after (hostOps2 (F := Ideal)) V (Proc.devRef .tc main_v48) = V (Proc.devRef .tc main_v48) := by
  after_results_simp
theorem stretch2_v22 : after (hostOps2 (F := Ideal)) V (Proc.devRef .tc main_v22) = V (Proc.devRef .tc main_v22) := by
  after_results_simp
theorem stretch2_arg0 : after (hostOps2 (F := Ideal)) V (Proc.devRef .tc main_arg0) = V (Proc.devRef .tc main_arg0) := by
  after_results_simp

/-- Last stretch: the two segment sums over the source node, their quotient, the residual. -/
theorem stretch3_v65 :
    after (hostOps3 (F := Ideal)) V (Proc.devRef .tc main_v65)
      = KVal.tailOf (F := Ideal) (V (Proc.devRef .tc main_v52_0)) (V (Proc.devRef .tc main_v52_1)) (V (Proc.devRef .tc main_v22))
          (V (Proc.devRef .tc main_arg0)) := by
  after_results_simp
  rfl

end Stretches

/-! ## The values along the run, as functions of the launch memory -/

variable (m : (ℓ : Loc nD τ sig) → Buf (Elt Ideal) ℓ) (ρ : Dev nD → PrngReg) (c : Dev nD)

/-- Core `c`'s four argument arrays as launched: node features, edge list, weight, attention vector. -/
abbrev xA : FVec Ideal S100000x128 .f32 := m ((c : Thread nD τ).loc main_arg0)
abbrev eiA : IVec S2x800000 32 := m ((c : Thread nD τ).loc main_arg1)
abbrev wA : FVec Ideal S128x128 .f32 := m ((c : Thread nD τ).loc main_arg2)
abbrev attA : FVec Ideal S256x1 .f32 := m ((c : Thread nD τ).loc main_arg3)
/-- The projected array: features and the two scores of every node. -/
def hextA : FVec Ideal S100000x256 .f32 := KVal.projAll (xA m c) (KVal.wext (wA m c) (attA m c))
/-- The two scores along the edges. -/
def sSrcA : FVec Ideal S900000x1 .f32 := KVal.gatherCol (KVal.scoreCol128 (hextA m c)) (KVal.srcAll (eiA m c))
def sDstA : FVec Ideal S900000x1 .f32 := KVal.gatherCol (KVal.scoreCol129 (hextA m c)) (KVal.dstAll (eiA m c))
/-- The logits, the destination rows, the global maximum. -/
def lgA : FVec Ideal S900000x1 .f32 := KVal.leakyAll (sSrcA m c) (sDstA m c)
def hdA : FVec Ideal S900000x128 .f32 := KVal.gatherRows (KVal.featCols (hextA m c)) (KVal.dstAll (eiA m c))
def gmA : FVec Ideal S1x1 .f32 := KVal.gmaxOf (lgA m c)

/-- The program's value is the last stretch applied to these. -/
theorem kerOut_eq :
    KVal.kerOut (xA m c) (eiA m c) (wA m c) (attA m c)
      = KVal.tailOf (KVal.expAll (lgA m c) (gmA m c)) (KVal.contribAll (lgA m c) (hdA m c) (gmA m c)) (KVal.srcAll (eiA m c)) (xA m c) := rfl

/-! ## What each tiled stage is assumed to leave in its output arrays, whatever contents it is entered from -/

abbrev Stage0 : Prop := ∀ (V : (c : Dev nD) → (b : Ref sig .tc) → Buf (Elt Ideal) ((c : Thread nD τ).loc b)) (c : Dev nD),
  (dat0 (F := Ideal) V c).arrAt 2 cfg0.N = KVal.projAll (V c main_arg0) (V c main_v12)
abbrev Stage1 : Prop := ∀ (V : (c : Dev nD) → (b : Ref sig .tc) → Buf (Elt Ideal) ((c : Thread nD τ).loc b)) (c : Dev nD),
  (dat1 (F := Ideal) V c).arrAt 2 cfg1.N = KVal.leakyAll (F := Ideal) (V c main_v33) (V c main_v41)
abbrev Stage23 : Prop := ∀ (V : (c : Dev nD) → (b : Ref sig .tc) → Buf (Elt Ideal) ((c : Thread nD τ).loc b)) (c : Dev nD),
  (dat2 (F := Ideal) V c).arrAt 3 cfg2.N = KVal.expAll (F := Ideal) (V c main_v49) (V c main_v51)
abbrev Stage24 : Prop := ∀ (V : (c : Dev nD) → (b : Ref sig .tc) → Buf (Elt Ideal) ((c : Thread nD τ).loc b)) (c : Dev nD),
  (dat2 (F := Ideal) V c).arrAt 4 cfg2.N = KVal.contribAll (V c main_v49) (V c main_v48) (V c main_v51)

/-! ## The boundaries, from the launch forward: one read per buffer -/

/-! ### After the first stretch -/

theorem W1_arg0 : W1 m ρ c (Proc.devRef .tc main_arg0) = xA m c := stretch0_arg0 (W0 m ρ c)
theorem W1_arg1 : W1 m ρ c (Proc.devRef .tc main_arg1) = eiA m c := stretch0_arg1 (W0 m ρ c)
theorem W1_v12 : W1 m ρ c (Proc.devRef .tc main_v12) = KVal.wext (wA m c) (attA m c) := stretch0_v12 (W0 m ρ c)

/-! ### After the first tiled stage: its output holds the projected array; its first input and the edge list are as
    entered -/

theorem W2_v13 (h0 : Stage0) : W2 m ρ c (Proc.devRef .tc main_v13) = hextA m c :=
  (W2_arr m ρ c 2).trans ((h0 (V1 m ρ) c).trans (congrArg₂ KVal.projAll (W1_arg0 m ρ c) (W1_v12 m ρ c)))
theorem W2_arg0 : W2 m ρ c (Proc.devRef .tc main_arg0) = xA m c :=
  (W2_arr m ρ c 0).trans (((dat0 (V1 m ρ) c).arrAt_in 0 rfl _).trans ((A_eq0 (V1 m ρ) c 0).trans (W1_arg0 m ρ c)))
theorem W2_arg1 : W2 m ρ c (Proc.devRef .tc main_arg1) = eiA m c :=
  (W2_of_ne m ρ c main_arg1 (by decide)).trans (W1_arg1 m ρ c)

/-! ### After the second stretch -/

theorem W3_v22 : W3 m ρ c (Proc.devRef .tc main_v22) = KVal.srcAll (eiA m c) :=
  (stretch1_v22 (W2 m ρ c)).trans (congrArg KVal.srcAll (W2_arg1 m ρ c))
theorem W3_v33 (h0 : Stage0) : W3 m ρ c (Proc.devRef .tc main_v33) = sSrcA m c :=
  (stretch1_v33 (W2 m ρ c)).trans
    (congrArg₂ (fun h e => KVal.gatherCol (F := Ideal) (KVal.scoreCol128 h) (KVal.srcAll e)) (W2_v13 m ρ c h0) (W2_arg1 m ρ c))
theorem W3_v41 (h0 : Stage0) : W3 m ρ c (Proc.devRef .tc main_v41) = sDstA m c :=
  (stretch1_v41 (W2 m ρ c)).trans
    (congrArg₂ (fun h e => KVal.gatherCol (F := Ideal) (KVal.scoreCol129 h) (KVal.dstAll e)) (W2_v13 m ρ c h0) (W2_arg1 m ρ c))
theorem W3_v48 (h0 : Stage0) : W3 m ρ c (Proc.devRef .tc main_v48) = hdA m c :=
  (stretch1_v48 (W2 m ρ c)).trans
    (congrArg₂ (fun h e => KVal.gatherRows (F := Ideal) (KVal.featCols h) (KVal.dstAll e)) (W2_v13 m ρ c h0) (W2_arg1 m ρ c))
theorem W3_arg0 : W3 m ρ c (Proc.devRef .tc main_arg0) = xA m c :=
  (stretch1_arg0 (W2 m ρ c)).trans (W2_arg0 m ρ c)

/-! ### After the second tiled stage: its output holds the logits; the rest is carried -/

theorem W4_v49 (h0 : Stage0) (h1 : Stage1) : W4 m ρ c (Proc.devRef .tc main_v49) = lgA m c :=
  (W4_arr m ρ c 2).trans ((h1 (V3 m ρ) c).trans (congrArg₂ KVal.leakyAll (W3_v33 m ρ c h0) (W3_v41 m ρ c h0)))
theorem W4_v48 (h0 : Stage0) : W4 m ρ c (Proc.devRef .tc main_v48) = hdA m c :=
  (W4_of_ne m ρ c main_v48 (by decide)).trans (W3_v48 m ρ c h0)
theorem W4_v22 : W4 m ρ c (Proc.devRef .tc main_v22) = KVal.srcAll (eiA m c) :=
  (W4_of_ne m ρ c main_v22 (by decide)).trans (W3_v22 m ρ c)
theorem W4_arg0 : W4 m ρ c (Proc.devRef .tc main_arg0) = xA m c :=
  (W4_of_ne m ρ c main_arg0 (by decide)).trans (W3_arg0 m ρ c)

/-! ### After the third stretch -/

theorem W5_v49 (h0 : Stage0) (h1 : Stage1) : W5 m ρ c (Proc.devRef .tc main_v49) = lgA m c :=
  (stretch2_v49 (W4 m ρ c)).trans (W4_v49 m ρ c h0 h1)
theorem W5_v51 (h0 : Stage0) (h1 : Stage1) : W5 m ρ c (Proc.devRef .tc main_v51) = gmA m c :=
  (stretch2_v51 (W4 m ρ c)).trans (congrArg (KVal.gmaxOf (F := Ideal)) (W4_v49 m ρ c h0 h1))
theorem W5_v48 (h0 : Stage0) : W5 m ρ c (Proc.devRef .tc main_v48) = hdA m c :=
  (stretch2_v48 (W4 m ρ c)).trans (W4_v48 m ρ c h0)
theorem W5_v22 : W5 m ρ c (Proc.devRef .tc main_v22) = KVal.srcAll (eiA m c) :=
  (stretch2_v22 (W4 m ρ c)).trans (W4_v22 m ρ c)
theorem W5_arg0 : W5 m ρ c (Proc.devRef .tc main_arg0) = xA m c :=
  (stretch2_arg0 (W4 m ρ c)).trans (W4_arg0 m ρ c)

/-! ### After the third tiled stage: its two outputs hold the exponentials and the weighted rows -/

theorem W6_v52_0 (h0 : Stage0) (h1 : Stage1) (h23 : Stage23) :
    W6 m ρ c (Proc.devRef .tc main_v52_0) = KVal.expAll (lgA m c) (gmA m c) :=
  (W6_arr m ρ c 3).trans ((h23 (V5 m ρ) c).trans (congrArg₂ KVal.expAll (W5_v49 m ρ c h0 h1) (W5_v51 m ρ c h0 h1)))
theorem W6_v52_1 (h0 : Stage0) (h1 : Stage1) (h24 : Stage24) :
    W6 m ρ c (Proc.devRef .tc main_v52_1) = KVal.contribAll (lgA m c) (hdA m c) (gmA m c) :=
  (W6_arr m ρ c 4).trans ((h24 (V5 m ρ) c).trans (by
    show KVal.contribAll (W5 m ρ c (Proc.devRef .tc main_v49)) (W5 m ρ c (Proc.devRef .tc main_v48)) (W5 m ρ c (Proc.devRef .tc main_v51)) = _
    rw [W5_v49 m ρ c h0 h1, W5_v48 m ρ c h0, W5_v51 m ρ c h0 h1]))
theorem W6_v22 : W6 m ρ c (Proc.devRef .tc main_v22) = KVal.srcAll (eiA m c) :=
  (W6_of_ne m ρ c main_v22 (by decide)).trans (W5_v22 m ρ c)
theorem W6_arg0 : W6 m ρ c (Proc.devRef .tc main_arg0) = xA m c :=
  (W6_of_ne m ρ c main_arg0 (by decide)).trans (W5_arg0 m ρ c)

/-! ## The result array -/

/-- The result buffer after the last stretch, in the named values. -/
theorem W7_v65 (h0 : Stage0) (h1 : Stage1) (h23 : Stage23) (h24 : Stage24) :
    W7 m ρ c (Proc.devRef .tc main_v65)
      = KVal.tailOf (KVal.expAll (lgA m c) (gmA m c)) (KVal.contribAll (lgA m c) (hdA m c) (gmA m c)) (KVal.srcAll (eiA m c)) (xA m c) := by
  refine (stretch3_v65 (W6 m ρ c)).trans ?_
  rw [W6_v52_0 m ρ c h0 h1 h23, W6_v52_1 m ρ c h0 h1 h24, W6_v22 m ρ c, W6_arg0 m ρ c]

/-- The kernel program's result array, read through the fold of boundary contents, is `KVal.kerOut` of the four
    arguments as launched. -/
theorem out_eq
    (h0 : ∀ (V : (c : Dev nD) → (b : Ref sig .tc) → Buf (Elt Ideal) ((c : Thread nD τ).loc b)) (c : Dev nD),
      (dat0 (F := Ideal) V c).arrAt 2 cfg0.N = KVal.projAll (V c main_arg0) (V c main_v12))
    (h1 : ∀ (V : (c : Dev nD) → (b : Ref sig .tc) → Buf (Elt Ideal) ((c : Thread nD τ).loc b)) (c : Dev nD),
      (dat1 (F := Ideal) V c).arrAt 2 cfg1.N = KVal.leakyAll (F := Ideal) (V c main_v33) (V c main_v41))
    (h23 : ∀ (V : (c : Dev nD) → (b : Ref sig .tc) → Buf (Elt Ideal) ((c : Thread nD τ).loc b)) (c : Dev nD),
      (dat2 (F := Ideal) V c).arrAt 3 cfg2.N = KVal.expAll (F := Ideal) (V c main_v49) (V c main_v51))
    (h24 : ∀ (V : (c : Dev nD) → (b : Ref sig .tc) → Buf (Elt Ideal) ((c : Thread nD τ).loc b)) (c : Dev nD),
      (dat2 (F := Ideal) V c).arrAt 4 cfg2.N = KVal.contribAll (V c main_v49) (V c main_v48) (V c main_v51))
    (m : (ℓ : Loc nD τ sig) → Buf (Elt Ideal) ℓ) (ρ : Dev nD → PrngReg) (c : Dev nD) :
    W7 (F := Ideal) m ρ c (Proc.devRef .tc main_v65)
      = KVal.kerOut (m ((c : Thread nD τ).loc main_arg0)) (m ((c : Thread nD τ).loc main_arg1)) (m ((c : Thread nD τ).loc main_arg2)) (m ((c : Thread nD τ).loc main_arg3)) :=
  (W7_v65 m ρ c h0 h1 h23 h24).trans (kerOut_eq m c).symm

end Cert.KernelIdeal.KValue

end
-- ==== Proof.RefDefs.lean ====
/-
  The reference program's value as one pure function of its four arguments.

  Single-head graph attention over N = 100000 nodes and T = 900000 directed edges (the 800000 given edges
  followed by one self loop per node): h = x·W; per-node scores h·a_top and h·a_bot (a_top, a_bot the two halves
  of the attention vector); per edge the leaky-relu of score_src[source] + score_dst[destination]; e the exponential
  of that logit less the global maximum; out(n) = (Σ_{edges from n} e · h[destination]) / (Σ_{edges from n} e + ε) + x(n).
-/
import proofs.«161476_j38508676776169_1_alg».proof.Proof.Gen.ReferenceIdeal
import Idealize.ShloMosaic.PureOps.Ideal

noncomputable section

namespace Cert.ReferenceIdeal.RefVal

open Cert.ReferenceIdeal Cert.ReferenceIdeal.Facts₀ Idealize.ShloMosaic

variable {F : FTy → Type} [FloatOps F]

/-- Source node of every directed edge: the given sources, then every node (its self loop). -/
def srcAll (ei : IVec S2x800000 32) : IVec S900000 32 :=
  concatenate S900000 0 [⟨S800000, shapeCast S800000 (extractStridedSlice S1x800000 ![0, 0] ei slices_S2x800000_S1x800000_0_0) shapeCasts_S1x800000_S800000⟩,
    ⟨S100000, iotaInDim S100000 32 0⟩] concatenates_S800000_S100000_S900000_d0

/-- Destination node of every directed edge: the given destinations, then every node. -/
def dstAll (ei : IVec S2x800000 32) : IVec S900000 32 :=
  concatenate S900000 0 [⟨S800000, shapeCast S800000 (extractStridedSlice S1x800000 ![1, 0] ei slices_S2x800000_S1x800000_1_0) shapeCasts_S1x800000_S800000⟩,
    ⟨S100000, iotaInDim S100000 32 0⟩] concatenates_S800000_S100000_S900000_d0

/-- A node list as gather indices: a negative entry counts from the end (100000 is added), and the list becomes a
    one-column index table. -/
def wrapIdx (v : IVec S900000 32) : IVec S900000x1 32 :=
  broadcastInDim S900000x1 ![0] bcast_S900000_S900000x1_0
    (select (cmpi .slt v (broadcastInDim S900000 ![] bcast_S_S900000 (constantI S_ 32 0#32)))
      (addi v (broadcastInDim S900000 ![] bcast_S_S900000 (constantI S_ 32 100000#32))) v)

/-- The projected node features h = x·W. -/
def feat (x : FVec F S100000x128 .f32) (w : FVec F S128x128 .f32) : FVec F S100000x128 .f32 :=
  Host.dotGeneral dot_S100000x128_S128x128_S100000x128_1_0_0_1_n_n none x w

/-- The per-node score h·(rows `off`…`off+127` of the attention vector), for the two halves. -/
def score0 (h : FVec F S100000x128 .f32) (att : FVec F S256x1 .f32) : FVec F S100000 .f32 :=
  shapeCast S100000 (Host.dotGeneral dot_S100000x128_S128x1_S100000x1_1_0_0_1_n_n none h
    (extractStridedSlice S128x1 ![0, 0] att slices_S256x1_S128x1_0_0)) shapeCasts_S100000x1_S100000
def score1 (h : FVec F S100000x128 .f32) (att : FVec F S256x1 .f32) : FVec F S100000 .f32 :=
  shapeCast S100000 (Host.dotGeneral dot_S100000x128_S128x1_S100000x1_1_0_0_1_n_n none h
    (extractStridedSlice S128x1 ![128, 0] att slices_S256x1_S128x1_128_0)) shapeCasts_S100000x1_S100000

/-- The per-edge logit: s = score_src[source] + score_dst[destination], and s where s ≥ 0, else slope · s. -/
def logits (asrc adst : FVec F S100000 .f32) (src dst : IVec S900000 32) : FVec F S900000 .f32 :=
  select (cmpf .oge
      (addf (Host.gather gather_S100000_S900000x1_S900000_n_0_n_n_0_1_1 asrc (wrapIdx src))
        (Host.gather gather_S100000_S900000x1_S900000_n_0_n_n_0_1_1 adst (wrapIdx dst)))
      (broadcastInDim S900000 ![] bcast_S_S900000 (constant S_ .f32 0x00000000#32)))
    (addf (Host.gather gather_S100000_S900000x1_S900000_n_0_n_n_0_1_1 asrc (wrapIdx src))
      (Host.gather gather_S100000_S900000x1_S900000_n_0_n_n_0_1_1 adst (wrapIdx dst)))
    (mulf (broadcastInDim S900000 ![] bcast_S_S900000 (constant S_ .f32 0x3C23D70A#32))
      (addf (Host.gather gather_S100000_S900000x1_S900000_n_0_n_n_0_1_1 asrc (wrapIdx src))
        (Host.gather gather_S100000_S900000x1_S900000_n_0_n_n_0_1_1 adst (wrapIdx dst))))

/-- e = exp(logit − the maximum of all logits). -/
def expo (lg : FVec F S900000 .f32) : FVec F S900000 .f32 :=
  Host.exp (subf lg (broadcastInDim S900000 ![] bcast_S_S900000
    (Host.reduce FloatOps.maximumf lg (constant S_ .f32 0xFF800000#32) reducesTo_S900000_S_d0 h_S_)))

/-- The per-edge message e(t) · h[destination(t)]. -/
def contrib (e : FVec F S900000 .f32) (h : FVec F S100000x128 .f32) (dst : IVec S900000 32) : FVec F S900000x128 .f32 :=
  mulf (broadcastInDim S900000x128 ![0, 1] bcast_S900000x1_S900000x128_0_1 (broadcastInDim S900000x1 ![0] bcast_S900000_S900000x1_0 e))
    (Host.gather gather_S100000x128_S900000x1_S900000x128_1_0_n_n_0_1_1128 h (wrapIdx dst))

/-- out(n, j) = (Σ_{edges t with source n} ct(t, j)) / ((Σ_{edges t with source n} e(t)) + ε) + x(n, j). -/
def refTail (e : FVec F S900000 .f32) (ct : FVec F S900000x128 .f32) (src : IVec S900000 32) (x : FVec F S100000x128 .f32) : FVec F S100000x128 .f32 :=
  addf (Host.divf
      (Host.scatterAdd scatter_S100000x128_S900000x1_S900000x128_1_0_0_1
        (broadcastInDim S100000x128 ![] bcast_S_S100000x128 (constant S_ .f32 0x00000000#32))
        (broadcastInDim S900000x1 ![0] bcast_S900000_S900000x1_0 src) ct)
      (broadcastInDim S100000x128 ![0, 1] bcast_S100000x1_S100000x128_0_1
        (addf (broadcastInDim S100000x1 ![0] bcast_S100000_S100000x1_0
            (Host.scatterAdd scatter_S100000_S900000x1_S900000_n_0_0_1
              (broadcastInDim S100000 ![] bcast_S_S100000 (constant S_ .f32 0x00000000#32))
              (broadcastInDim S900000x1 ![0] bcast_S900000_S900000x1_0 src) e))
          (broadcastInDim S100000x1 ![] bcast_S_S100000x1 (constant S_ .f32 0x322BCC77#32)))))
    x

/-- The reference program's result as a function of its four arguments. -/
def refOut (x : FVec F S100000x128 .f32) (ei : IVec S2x800000 32) (w : FVec F S128x128 .f32) (att : FVec F S256x1 .f32) :
    FVec F S100000x128 .f32 :=
  let h := feat x w
  let e := expo (logits (score0 h att) (score1 h att) (srcAll ei) (dstAll ei))
  refTail e (contrib e h (dstAll ei)) (srcAll ei) x

end Cert.ReferenceIdeal.RefVal

end
-- ==== Proof.RefRun.lean ====
/-
  The reference program's run. @main of the reference is a straight line of StableHLO operations: its own
  sixty-six, and in their midst the call of @leaky_relu on (%28, %cst), which is six operations and one call of
  @_where, itself one select. Listed in order with the calls' operations at the call site, over the buffers the
  calls' records name, they are seventy-three operations; @main is the sequence of that list, and its run from any
  memory with zero counters ends with every TensorCore buffer at the fold of the operations' results over the
  launch contents. No operation writes an argument's buffer, so the arguments end as they began.
-/
import proofs.«161476_j38508676776169_1_alg».proof.Proof.Gen.ReferenceIdeal
import proofs.«161476_j38508676776169_1_alg».proof.Proof.RefDefs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the call's seven inlined: thirty-four of @main's own (the edge lists' two rows
    with the self-loops appended, the projected features and their two attention scores, the scores gathered at
    the edges' ends and added, the slope), then @leaky_relu's six over its record (the zero and its broadcast, the
    comparison with it, the slope converted and broadcast, the product) and @_where's select into %29, then
    @main's remaining thirty-two (the maximum, the shifted exponentials, their per-node sums, the weighted gathered
    rows scattered and summed, the quotient, the residual sum). -/
abbrev ops : List (HloOp τ sig (Elt F)) :=
  [ nullary main_v0 (iotaInDim S100000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    binary main_arg0 main_arg2 main_v7 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v8 ((extractStridedSlice S128x1 ![0, 0] · slices_S256x1_S128x1_0_0) : (⟨S256x1, .f32⟩ : BufTy).Contents (Elt F) → (⟨S128x1, .f32⟩ : BufTy).Contents (Elt F)),
    binary main_v7 main_v8 main_v9 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    reshape main_v9 main_v10 rfl shapeCasts_S100000x1_S100000,
    unary main_arg3 main_v11 ((extractStridedSlice S128x1 ![128, 0] · slices_S256x1_S128x1_128_0) : (⟨S256x1, .f32⟩ : BufTy).Contents (Elt F) → (⟨S128x1, .f32⟩ : BufTy).Contents (Elt F)),
    binary main_v7 main_v11 main_v12 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    reshape main_v12 main_v13 rfl shapeCasts_S100000x1_S100000,
    nullary main_c (constantI S_ 32 0#32),
    unary main_c main_v14 (broadcastInDim S900000 ![] bcast_S_S900000 : (⟨S_, .i32⟩ : BufTy).Contents (Elt F) → (⟨S900000, .i32⟩ : BufTy).Contents (Elt F)),
    binary main_v3 main_v14 main_v15 (cmpi .slt : (⟨S900000, .i32⟩ : BufTy).Contents (Elt F) → (⟨S900000, .i32⟩ : BufTy).Contents (Elt F) → (⟨S900000, .i1⟩ : BufTy).Contents (Elt F)),
    nullary main_c_0 (constantI S_ 32 100000#32),
    unary main_c_0 main_v16 (broadcastInDim S900000 ![] bcast_S_S900000 : (⟨S_, .i32⟩ : BufTy).Contents (Elt F) → (⟨S900000, .i32⟩ : BufTy).Contents (Elt F)),
    binary main_v3 main_v16 main_v17 (addi : (⟨S900000, .i32⟩ : BufTy).Contents (Elt F) → (⟨S900000, .i32⟩ : BufTy).Contents (Elt F) → (⟨S900000, .i32⟩ : BufTy).Contents (Elt F)),
    ternary main_v15 main_v17 main_v3 main_v18 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v18 main_v19 (broadcastInDim S900000x1 ![0] bcast_S900000_S900000x1_0 : (⟨S900000, .i32⟩ : BufTy).Contents (Elt F) → (⟨S900000x1, .i32⟩ : BufTy).Contents (Elt F)),
    binary main_v10 main_v19 main_v20 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    nullary main_c_1 (constantI S_ 32 0#32),
    unary main_c_1 main_v21 (broadcastInDim S900000 ![] bcast_S_S900000 : (⟨S_, .i32⟩ : BufTy).Contents (Elt F) → (⟨S900000, .i32⟩ : BufTy).Contents (Elt F)),
    binary main_v6 main_v21 main_v22 (cmpi .slt : (⟨S900000, .i32⟩ : BufTy).Contents (Elt F) → (⟨S900000, .i32⟩ : BufTy).Contents (Elt F) → (⟨S900000, .i1⟩ : BufTy).Contents (Elt F)),
    nullary main_c_2 (constantI S_ 32 100000#32),
    unary main_c_2 main_v23 (broadcastInDim S900000 ![] bcast_S_S900000 : (⟨S_, .i32⟩ : BufTy).Contents (Elt F) → (⟨S900000, .i32⟩ : BufTy).Contents (Elt F)),
    binary main_v6 main_v23 main_v24 (addi : (⟨S900000, .i32⟩ : BufTy).Contents (Elt F) → (⟨S900000, .i32⟩ : BufTy).Contents (Elt F) → (⟨S900000, .i32⟩ : BufTy).Contents (Elt F)),
    ternary main_v22 main_v24 main_v6 main_v25 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v25 main_v26 (broadcastInDim S900000x1 ![0] bcast_S900000_S900000x1_0 : (⟨S900000, .i32⟩ : BufTy).Contents (Elt F) → (⟨S900000x1, .i32⟩ : BufTy).Contents (Elt F)),
    binary main_v13 main_v26 main_v27 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v20 main_v27 main_v28 (addf : (⟨S900000, .f32⟩ : BufTy).Contents (Elt F) → (⟨S900000, .f32⟩ : BufTy).Contents (Elt F) → (⟨S900000, .f32⟩ : BufTy).Contents (Elt F)),
    nullary main_cst (constant S_ .f32 0x3C23D70A#32),
    TRef.nullary main_call0.cst (constant S_ .f32 0x00000000#32),
    TRef.unary main_call0.cst main_call0.v0 (broadcastInDim S900000 ![] bcast_S_S900000),
    TRef.binary (.of main_v28) main_call0.v0 main_call0.v1 (cmpf .oge),
    TRef.unary (.of main_cst) main_call0.v2 id,
    TRef.unary main_call0.v2 main_call0.v3 (broadcastInDim S900000 ![] bcast_S_S900000),
    TRef.binary main_call0.v3 (.of main_v28) main_call0.v4 mulf,
    TRef.ternary main_call0.v1 (.of main_v28) main_call0.v4 main_call0.call0.v0 select,
    nullary main_cst_3 (constant S_ .f32 0xFF800000#32),
    binary main_v29 main_cst_3 main_v30 ((fun x v => Host.reduce FloatOps.maximumf x v reducesTo_S900000_S_d0 h_S_) : (⟨S900000, .f32⟩ : BufTy).Contents (Elt F) → (⟨S_, .f32⟩ : BufTy).Contents (Elt F) → (⟨S_, .f32⟩ : BufTy).Contents (Elt F)),
    unary main_v30 main_v31 (broadcastInDim S900000 ![] bcast_S_S900000 : (⟨S_, .f32⟩ : BufTy).Contents (Elt F) → (⟨S900000, .f32⟩ : BufTy).Contents (Elt F)),
    binary main_v29 main_v31 main_v32 (subf : (⟨S900000, .f32⟩ : BufTy).Contents (Elt F) → (⟨S900000, .f32⟩ : BufTy).Contents (Elt F) → (⟨S900000, .f32⟩ : BufTy).Contents (Elt F)),
    unary main_v32 main_v33 (Host.exp : (⟨S900000, .f32⟩ : BufTy).Contents (Elt F) → (⟨S900000, .f32⟩ : BufTy).Contents (Elt F)),
    nullary main_cst_4 (constant S_ .f32 0x00000000#32),
    unary main_cst_4 main_v34 (broadcastInDim S100000 ![] bcast_S_S100000 : (⟨S_, .f32⟩ : BufTy).Contents (Elt F) → (⟨S100000, .f32⟩ : BufTy).Contents (Elt F)),
    unary main_v3 main_v35 (broadcastInDim S900000x1 ![0] bcast_S900000_S900000x1_0 : (⟨S900000, .i32⟩ : BufTy).Contents (Elt F) → (⟨S900000x1, .i32⟩ : BufTy).Contents (Elt F)),
    ternary main_v34 main_v35 main_v33 main_v36 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    unary main_v36 main_v37 (broadcastInDim S100000x1 ![0] bcast_S100000_S100000x1_0 : (⟨S100000, .f32⟩ : BufTy).Contents (Elt F) → (⟨S100000x1, .f32⟩ : BufTy).Contents (Elt F)),
    nullary main_cst_5 (constant S_ .f32 0x322BCC77#32),
    unary main_cst_5 main_v38 (broadcastInDim S100000x1 ![] bcast_S_S100000x1 : (⟨S_, .f32⟩ : BufTy).Contents (Elt F) → (⟨S100000x1, .f32⟩ : BufTy).Contents (Elt F)),
    binary main_v37 main_v38 main_v39 (addf : (⟨S100000x1, .f32⟩ : BufTy).Contents (Elt F) → (⟨S100000x1, .f32⟩ : BufTy).Contents (Elt F) → (⟨S100000x1, .f32⟩ : BufTy).Contents (Elt F)),
    unary main_v33 main_v40 (broadcastInDim S900000x1 ![0] bcast_S900000_S900000x1_0 : (⟨S900000, .f32⟩ : BufTy).Contents (Elt F) → (⟨S900000x1, .f32⟩ : BufTy).Contents (Elt F)),
    nullary main_c_6 (constantI S_ 32 0#32),
    unary main_c_6 main_v41 (broadcastInDim S900000 ![] bcast_S_S900000 : (⟨S_, .i32⟩ : BufTy).Contents (Elt F) → (⟨S900000, .i32⟩ : BufTy).Contents (Elt F)),
    binary main_v6 main_v41 main_v42 (cmpi .slt : (⟨S900000, .i32⟩ : BufTy).Contents (Elt F) → (⟨S900000, .i32⟩ : BufTy).Contents (Elt F) → (⟨S900000, .i1⟩ : BufTy).Contents (Elt F)),
    nullary main_c_7 (constantI S_ 32 100000#32),
    unary main_c_7 main_v43 (broadcastInDim S900000 ![] bcast_S_S900000 : (⟨S_, .i32⟩ : BufTy).Contents (Elt F) → (⟨S900000, .i32⟩ : BufTy).Contents (Elt F)),
    binary main_v6 main_v43 main_v44 (addi : (⟨S900000, .i32⟩ : BufTy).Contents (Elt F) → (⟨S900000, .i32⟩ : BufTy).Contents (Elt F) → (⟨S900000, .i32⟩ : BufTy).Contents (Elt F)),
    ternary main_v42 main_v44 main_v6 main_v45 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v45 main_v46 (broadcastInDim S900000x1 ![0] bcast_S900000_S900000x1_0 : (⟨S900000, .i32⟩ : BufTy).Contents (Elt F) → (⟨S900000x1, .i32⟩ : BufTy).Contents (Elt F)),
    binary main_v7 main_v46 main_v47 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
    unary main_v40 main_v48 (broadcastInDim S900000x128 ![0, 1] bcast_S900000x1_S900000x128_0_1 : (⟨S900000x1, .f32⟩ : BufTy).Contents (Elt F) → (⟨S900000x128, .f32⟩ : BufTy).Contents (Elt F)),
    binary main_v48 main_v47 main_v49 (mulf : (⟨S900000x128, .f32⟩ : BufTy).Contents (Elt F) → (⟨S900000x128, .f32⟩ : BufTy).Contents (Elt F) → (⟨S900000x128, .f32⟩ : BufTy).Contents (Elt F)),
    nullary main_cst_8 (constant S_ .f32 0x00000000#32),
    unary main_cst_8 main_v50 (broadcastInDim S100000x128 ![] bcast_S_S100000x128 : (⟨S_, .f32⟩ : BufTy).Contents (Elt F) → (⟨S100000x128, .f32⟩ : BufTy).Contents (Elt F)),
    unary main_v3 main_v51 (broadcastInDim S900000x1 ![0] bcast_S900000_S900000x1_0 : (⟨S900000, .i32⟩ : BufTy).Contents (Elt F) → (⟨S900000x1, .i32⟩ : BufTy).Contents (Elt F)),
    ternary main_v50 main_v51 main_v49 main_v52 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)),
    unary main_v39 main_v53 (broadcastInDim S100000x128 ![0, 1] bcast_S100000x1_S100000x128_0_1 : (⟨S100000x1, .f32⟩ : BufTy).Contents (Elt F) → (⟨S100000x128, .f32⟩ : BufTy).Contents (Elt F)),
    binary main_v52 main_v53 main_v54 (Host.divf : (⟨S100000x128, .f32⟩ : BufTy).Contents (Elt F) → (⟨S100000x128, .f32⟩ : BufTy).Contents (Elt F) → (⟨S100000x128, .f32⟩ : BufTy).Contents (Elt F)),
    binary main_v54 main_arg0 main_v55 (addf : (⟨S100000x128, .f32⟩ : BufTy).Contents (Elt F) → (⟨S100000x128, .f32⟩ : BufTy).Contents (Elt F) → (⟨S100000x128, .f32⟩ : BufTy).Contents (Elt F)) ]

-- seventy-three binds re-associated: the rewrite under the chain recurses once per statement
set_option maxRecDepth 2048 in
set_option maxHeartbeats 4000000 in
/-- @main is that straight line: its two windows, and the two functions' definitions unfolded at their calls
    with the records at their fields, are one chain of steps once sequencing is re-associated. -/
theorem main_eq (c : Dev nD) : main (F := F) c = seq ops := by
  simp only [main, main_part0, main_part1, fn_leaky_relu.body, fn_where.body, seq, bind_assoc, pure_bind]

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., binary_bufs_sub .., unary_bufs_sub .., binary_bufs_sub .., reshape_bufs_sub .., unary_bufs_sub ..,
    binary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    binary_bufs_sub .., unary_bufs_sub .., binary_bufs_sub .., unary_bufs_sub .., nullary_bufs_sub .., unary_bufs_sub ..,
    unary_bufs_sub .., ternary_bufs_sub .., unary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., binary_bufs_sub ..,
    binary_bufs_sub ..⟩

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! No operation writes an argument's buffer: the fold leaves it at what it held. -/

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

theorem arg2_eq (V : Valuation τ sig (Elt F)) : after ops V (main_arg2 : DevRef τ sig) = V (main_arg2 : DevRef τ sig) := by
  after_results_simp

theorem arg3_eq (V : Valuation τ sig (Elt F)) : after ops V (main_arg3 : DevRef τ sig) = V (main_arg3 : DevRef τ sig) := by
  after_results_simp

attribute [local irreducible] Host.reduce Host.gather Host.scatter Host.scatterAdd concatenate in
set_option maxRecDepth 8192 in
set_option maxHeartbeats 1000000 in
/-- The fold at the result buffer is the reference's value at the arguments: the fold unrolled, each operation's
    result read at its own buffer and passed over at every other, what is left is the composed term of the
    operations over the four arguments' contents, which is `RefVal.refOut` unfolded (a reshape's result is the
    shape cast index by index; the typed references' transports are the identity at these literal references).
    The reductions, gathers, scatters and concatenations are kept folded meanwhile: the equation never looks
    inside them. -/
theorem out_eq (V : Valuation τ sig (Elt F)) :
    after ops V (main_v55 : DevRef τ sig)
      = RefVal.refOut (V (main_arg0 : DevRef τ sig)) (V (main_arg1 : DevRef τ sig)) (V (main_arg2 : DevRef τ sig)) (V (main_arg3 : DevRef τ sig)) := by
  after_results_simp
  rfl

/-- On every device, for any float values, from any memory with zero counters: every weakly fair execution of
    @main terminates with the result buffer at the reference's value of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55) = RefVal.refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v55).trans (out_eq _), (h c main_arg0).trans (arg0_eq _),
      (h c main_arg1).trans (arg1_eq _), (h c main_arg2).trans (arg2_eq _), (h c main_arg3).trans (arg3_eq _)⟩)
    (run_main m ρ)

end Cert.ReferenceIdeal.RefRun

end
-- ==== Proof.Finite.lean ====
/-
  From the precondition to real entries. The precondition's printed function answers the one-bit word 1 exactly
  when every entry of the three float inputs has absolute value strictly below `+∞`. At the ideal instance a float
  is an extended real, its absolute value is `max x (-x)`, and the pattern `0x7F800000` denotes `⊤`; an extended
  real whose absolute value is below `⊤` is neither `⊤` nor `⊥`, so it is the coercion of a real number.
-/
import proofs.«161476_j38508676776169_1_alg».proof.Pre_finite_inputs
import proofs.«161476_j38508676776169_1_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Finite

open Idealize.ShloMosaic

/-- The rank-0 shape has one index: two of them agree at every axis because there is no axis. -/
instance subsingleton_idx : Subsingleton S_.Idx := ⟨fun a b => funext fun d => d.elim0⟩

/-- The pattern `0x7F800000` (sign 0, exponent all ones, fraction 0) denotes `+∞`. -/
theorem ofBits_inf : Ideal.ofBits .f32 0x7F800000#32 = (⊤ : EReal) := by
  simp [Ideal.ofBits, Ideal.ieee]

/-- An extended real with `max x (-x) < ⊤` is a real: at `⊤` the maximum is `⊤`, at `⊥` it is `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The one-bit word of a decided proposition is 1 exactly when the proposition holds. -/
theorem ofBool_decide_eq_one {p : Prop} [Decidable p] : BitVec.ofBool (decide p) = 1#1 ↔ p := by
  by_cases hp : p <;> simp [hp]

/-- One entry of the comparison `|x| < +∞` (the constant broadcast from the rank-0 shape) being 1 makes that
    entry of `x` a real number. -/
theorem real_of_cmp_entry {s : Shape} (hb : S_.BroadcastsInDim s (![] : Fin 0 → Fin s.rank)) (x : FVec Ideal s .f32)
    (i : s.Idx)
    (h : cmpf .olt (Host.absf x) (broadcastInDim s ![] hb (constant S_ .f32 0x7F800000#32)) i = 1#1) :
    ∃ r : ℝ, x i = (r : EReal) := by
  apply real_of_abs_lt_top
  have h' : BitVec.ofBool (decide (max (x i) (-(x i)) < Ideal.ofBits .f32 0x7F800000#32)) = 1#1 := h
  rw [ofBits_inf] at h'
  exact ofBool_decide_eq_one.1 h'

theorem real_of_pre (x : FVec Ideal S100000x128 .f32) (ei : IVec S2x800000 32) (w : FVec Ideal S128x128 .f32) (att : FVec Ideal S256x1 .f32)
    (h : Cert.Pre_finite_inputs.fn (F := Ideal) x ei w att = fun _ => 1#1) :
    (∀ i, ∃ r : ℝ, x i = (r : EReal)) ∧ (∀ i, ∃ r : ℝ, w i = (r : EReal)) ∧ (∀ i, ∃ r : ℝ, att i = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · exact real_of_cmp_entry _ x i (Host.reduce_andi_all _ _ _ _ _ h1 i)
  · exact real_of_cmp_entry _ w i (Host.reduce_andi_all _ _ _ _ _ h2 i)
  · exact real_of_cmp_entry _ att i (Host.reduce_andi_all _ _ _ _ _ h3 i)

end Cert.Pre_finite_inputs.Finite

end
-- ==== Proof.LibScatterSet.lean ====
import Idealize.ShloMosaic.PureOps

/-!
# Scatter with the "set" combiner, read at one operand index

`Host.scatter d f x idx upd` is the left fold, over the update indices in row-major order, of
the step that replaces the accumulator's element at the update's result index `i` by
`f (r i) (upd j)` (and leaves the accumulator alone when the update falls outside the operand).

For the combiner `f = fun _ b => b` (the update overwrites the element) the value of the result
at one operand index `i'` is:

* the operand's element `x i'`, when no update lands on `i'` (this holds for every `f`);
* the common value `v`, when at least one update lands on `i'` and every update landing on
  `i'` carries `v` — repeated result indices are harmless when the repeated writes agree.
-/

namespace Idealize.ShloMosaic.ScatterSet
open Idealize.ShloMosaic

/-- Left fold of a pointwise-update step over an arbitrary list `L` of update labels, with
    `tgt n` the (optional) position that update `n` writes. The step is known only through two
    properties: an update with no target leaves the accumulator alone, and an update with target
    `i` leaves every position `k ≠ i` alone. If no label of `L` targets position `i'`, the fold
    leaves the accumulator's element at `i'` unchanged. -/
private theorem foldl_step_of_no_hit {ι I α : Type}
    (tgt : ι → Option I) (step : (I → α) → ι → (I → α))
    (hnone : ∀ r n, tgt n = none → step r n = r)
    (hother : ∀ r n i k, tgt n = some i → k ≠ i → step r n k = r k)
    (i' : I) (L : List ι) :
    ∀ r : I → α, (∀ n ∈ L, tgt n ≠ some i') → L.foldl step r i' = r i' := by
  induction L with
  | nil => intro r _; rfl
  | cons n L ih =>
    intro r h
    rw [List.foldl_cons, ih _ (fun m hm => h m (List.mem_cons_of_mem _ hm))]
    have hn : tgt n ≠ some i' := h n (List.mem_cons_self ..)
    cases htn : tgt n with
    | none => rw [hnone r n htn]
    | some i =>
      have hne : i' ≠ i := fun e => hn (by rw [htn, e])
      exact hother r n i i' htn hne

/-- Left fold of an overwriting pointwise-update step over an arbitrary list `L` of update labels,
    with `tgt n` the (optional) position update `n` writes and `val n` the value it carries. The
    step is known through three properties: no target, no change; target `i`, position `i`
    becomes `val n`; target `i`, every position `k ≠ i` is unchanged. If every label of `L`
    that targets `i'` carries the value `v`, and either the accumulator already holds `v` at `i'`
    or some label of `L` targets `i'`, then the fold holds `v` at `i'`. -/
private theorem foldl_set_of_hits_agree {ι I α : Type}
    (tgt : ι → Option I) (val : ι → α) (step : (I → α) → ι → (I → α))
    (hnone : ∀ r n, tgt n = none → step r n = r)
    (hsame : ∀ r n i, tgt n = some i → step r n i = val n)
    (hother : ∀ r n i k, tgt n = some i → k ≠ i → step r n k = r k)
    (i' : I) (v : α) (L : List ι) :
    ∀ r : I → α, (∀ n ∈ L, tgt n = some i' → val n = v) →
      (r i' = v ∨ ∃ n ∈ L, tgt n = some i') → L.foldl step r i' = v := by
  induction L with
  | nil =>
    intro r _ h
    rcases h with h | ⟨n, hn, _⟩
    · exact h
    · cases hn
  | cons n L ih =>
    intro r hall h
    rw [List.foldl_cons]
    refine ih _ (fun m hm => hall m (List.mem_cons_of_mem _ hm)) ?_
    by_cases htn : tgt n = some i'
    · left
      rw [hsame r n i' htn]
      exact hall n (List.mem_cons_self ..) htn
    · rcases h with h | ⟨m, hm, hmt⟩
      · left
        cases htn' : tgt n with
        | none => rw [hnone r n htn']; exact h
        | some i =>
          have hne : i' ≠ i := fun e => htn (by rw [htn', e])
          rw [hother r n i i' htn' hne]; exact h
      · right
        rcases List.mem_cons.1 hm with rfl | hm'
        · exact absurd hmt htn
        · exact ⟨m, hm', hmt⟩

/-- **Scatter, no update lands on `i'`.** If no update index `j` has result index `i'` (each
    update lands elsewhere or is dropped as out of bounds), then the scatter's result at `i'` is
    the operand's element `x i'`. Stated for the overwriting combiner; the fold argument does not
    depend on the combiner. -/
theorem scatter_set_of_no_hit {α : Type} {s si u : Shape} {w : Nat}
    (d : ScatterDims s si u) (x : s.Idx → α) (idx : IVec si w) (upd : u.Idx → α) (i' : s.Idx)
    (h : ∀ j : u.Idx, d.resultIdx? j idx ≠ some i') :
    Host.scatter d (fun _ b => b) x idx upd i' = x i' := by
  unfold Host.scatter
  refine foldl_step_of_no_hit (fun n => d.resultIdx? (u.rowMajor.symm n) idx) _ ?_ ?_ i'
    (List.finRange u.numel) x (fun n _ => h (u.rowMajor.symm n))
  · intro r n hn
    simp only [hn]
  · intro r n i k hn hk
    simp only [hn, if_neg hk]

/-- **Scatter with the overwriting combiner, all hits on `i'` agree.** If at least one update
    index has result index `i'`, and every update index whose result index is `i'` carries the
    same value `v`, then the result of the scatter at `i'` is `v` — whatever the order of the
    repeated writes, since they all write `v`. -/
theorem scatter_set_of_hits_agree {α : Type} {s si u : Shape} {w : Nat}
    (d : ScatterDims s si u) (x : s.Idx → α) (idx : IVec si w) (upd : u.Idx → α) (i' : s.Idx)
    (v : α)
    (hex : ∃ j : u.Idx, d.resultIdx? j idx = some i')
    (hall : ∀ j : u.Idx, d.resultIdx? j idx = some i' → upd j = v) :
    Host.scatter d (fun _ b => b) x idx upd i' = v := by
  unfold Host.scatter
  refine foldl_set_of_hits_agree (fun n => d.resultIdx? (u.rowMajor.symm n) idx)
    (fun n => upd (u.rowMajor.symm n)) _ ?_ ?_ ?_ i' v (List.finRange u.numel) x
    (fun n _ => hall (u.rowMajor.symm n)) (Or.inr ?_)
  · intro r n hn
    simp only [hn]
  · intro r n i hn
    simp only [hn, if_true]
  · intro r n i k hn hk
    simp only [hn, if_neg hk]
  · obtain ⟨j, hj⟩ := hex
    exact ⟨u.rowMajor j, List.mem_finRange _, by simpa using hj⟩

end Idealize.ShloMosaic.ScatterSet
-- ==== Proof.LibAssocMax.lean ====
/-
  General lemmas over the extended reals: associativity of a triple product of real-valued families written as
  double sums, and the maximum of an [n, 1] column against the maximum of the length-n vector with the same entries.
  The module docstring below the imports says what is proved and how.
-/
import Idealize.ShloMosaic.PureOps.Ideal
import Idealize.ShloMosaic.PureOps.Ideal.Laws
import Idealize.ShloMosaic.PureOps.Reduce
import Idealize.ShloMosaic.Lib.ValueIdx
import Mathlib.Data.EReal.Basic
import Mathlib.Algebra.BigOperators.Group.Finset.Basic
import Mathlib.Algebra.BigOperators.Ring.Finset
import Mathlib.Data.Finset.Fold
import Mathlib.Data.Finset.BooleanAlgebra

/-!
# A triple product of reals, and a column's maximum

  Two general lemmas over the extended reals, for comparing a kernel that contracts in one order and reduces a
  column with a reference that contracts in the other order and reduces a vector.

  (1) ASSOCIATIVITY OF A TRIPLE PRODUCT `(x·W)·a = x·(W·a)` FOR REAL ENTRIES (`sum_mul_sum_assoc`): the two orders
  of a double sum of products agree when every factor is a real number. On the extended reals multiplication does
  not distribute over addition at the infinities (`⊤ * (2 + (-1)) = ⊤` against `⊤ * 2 + ⊤ * (-1) = ⊤ + ⊥ = ⊥`), so the statement asks
  every entry to be the coercion of a real; the proof moves both sides into `ℝ`, where it is `Finset.mul_sum`,
  `Finset.sum_mul`, `Finset.sum_comm` and `mul_assoc`. On the way: the coercion `ℝ → EReal` commutes with a
  finite sum (`coe_sum`), and a finite sum of products of reals is a real (`sum_mul_real`).

  (2) THE MAXIMUM OVER AN `[n, 1]` COLUMN IS THE MAXIMUM OVER THE LENGTH-`n` VECTOR WITH THE SAME ENTRIES
  (`hostReduce_max_col_eq_vec`): the host's full max-reduce of the column (axes `[0, 1]`) and of the vector (axis
  `[0]`) agree, from the same initial value. Both are folds of `max`, which commutes and associates, over the SET
  of operand indices that drop to the result index; the result has rank zero, so that set is every operand index;
  and `i ↦ (i, 0)` is a bijection from the vector's indices onto the column's along which the entries agree. The
  argument is uniform in `n`: no index set is enumerated.
-/

open scoped BigOperators

namespace Idealize.ShloMosaic.AssocMax

open Idealize.ShloMosaic Idealize.ShloMosaic.ValueIdx

/-! ## Finite sums of reals inside the extended reals -/

/-- The coercion of the reals into the extended reals commutes with a finite sum. -/
theorem coe_sum {ι : Type*} (s : Finset ι) (f : ι → ℝ) : ((∑ i ∈ s, f i : ℝ) : EReal) = ∑ i ∈ s, (f i : EReal) := by
  induction s using Finset.cons_induction with
  | empty => simp
  | cons a S ha ih => rw [Finset.sum_cons, Finset.sum_cons, EReal.coe_add, ih]

/-- A finite sum of products of reals is a real. -/
theorem sum_mul_real {K : ℕ} (x : Fin K → EReal) (y : Fin K → EReal) (hx : ∀ k, ∃ r : ℝ, x k = (r : EReal))
    (hy : ∀ k, ∃ r : ℝ, y k = (r : EReal)) : ∃ r : ℝ, ∑ k, x k * y k = (r : EReal) := by
  choose xr hxr using hx
  choose yr hyr using hy
  refine ⟨∑ k, xr k * yr k, ?_⟩
  rw [coe_sum]
  exact Finset.sum_congr rfl fun k _ => by rw [hxr k, hyr k, EReal.coe_mul]

/-- (x·W)·a = x·(W·a) for real entries: the two orders of a double sum of products agree when every factor is a real number (on the extended reals distributivity fails at the infinities, so finiteness is used). -/
theorem sum_mul_sum_assoc {K J : ℕ} (x : Fin K → EReal) (W : Fin K → Fin J → EReal) (a : Fin J → EReal)
    (hx : ∀ k, ∃ r : ℝ, x k = (r : EReal)) (hW : ∀ k j, ∃ r : ℝ, W k j = (r : EReal)) (ha : ∀ j, ∃ r : ℝ, a j = (r : EReal)) :
    ∑ k, x k * (∑ j, W k j * a j) = ∑ j, (∑ k, x k * W k j) * a j := by
  choose xr hxr using hx
  choose Wr hWr using hW
  choose ar har using ha
  -- each inner sum is the coercion of the real inner sum
  have hL : ∀ k, ∑ j, W k j * a j = ((∑ j, Wr k j * ar j : ℝ) : EReal) := fun k => by
    rw [coe_sum]
    exact Finset.sum_congr rfl fun j _ => by rw [hWr k j, har j, EReal.coe_mul]
  have hR : ∀ j, ∑ k, x k * W k j = ((∑ k, xr k * Wr k j : ℝ) : EReal) := fun j => by
    rw [coe_sum]
    exact Finset.sum_congr rfl fun k _ => by rw [hxr k, hWr k j, EReal.coe_mul]
  calc ∑ k, x k * (∑ j, W k j * a j)
      = ((∑ k, xr k * ∑ j, Wr k j * ar j : ℝ) : EReal) := by
        rw [coe_sum]
        exact Finset.sum_congr rfl fun k _ => by rw [hxr k, hL k, EReal.coe_mul]
    _ = ((∑ j, (∑ k, xr k * Wr k j) * ar j : ℝ) : EReal) := by
        -- in ℝ: distribute both ways, exchange the two sums, reassociate each product
        congr 1
        simp only [Finset.mul_sum, Finset.sum_mul]
        rw [Finset.sum_comm]
        exact Finset.sum_congr rfl fun j _ => Finset.sum_congr rfl fun k _ => (mul_assoc _ _ _).symm
    _ = ∑ j, (∑ k, x k * W k j) * a j := by
        rw [coe_sum]
        exact Finset.sum_congr rfl fun j _ => by rw [hR j, har j, EReal.coe_mul]

/-! ## A column's maximum and a vector's -/

/-- The vector's indices and the `[n, 1]` column's correspond by `i ↦ (i, 0)`. -/
def colEquiv (n : ℕ) : (⟨1, ![n]⟩ : Shape).Idx ≃ (⟨2, ![n, 1]⟩ : Shape).Idx where
  toFun i := ix2 (i 0 : Fin n) (0 : Fin 1)
  invFun j := ix1 (j 0 : Fin n)
  left_inv i := (eq_ix1 i).symm
  right_inv j := by
    -- the two indices agree on axis 0 by construction, and axis 1 has one coordinate
    funext a
    match a with
    | ⟨0, _⟩ => rfl
    | ⟨1, _⟩ => exact Subsingleton.elim (α := Fin 1) _ _

/-- The maximum over all entries of an [n, 1] column equals the maximum over all entries of the length-n vector with the same entries: the host's full max-reduce of the column (axes [0, 1]) and of the vector (axis [0]) agree, from the same initial value. -/
theorem hostReduce_max_col_eq_vec {n : ℕ} (x : FVec Ideal ⟨2, ![n, 1]⟩ .f32) (y : FVec Ideal ⟨1, ![n]⟩ .f32)
    (hxy : ∀ i : Fin n, x (ix2 i (0 : Fin 1)) = y (ix1 i)) (v : FVec Ideal ⟨0, ![]⟩ .f32)
    (h2 : (⟨2, ![n, 1]⟩ : Shape).ReducesTo [0, 1] ⟨0, ![]⟩) (h1 : (⟨1, ![n]⟩ : Shape).ReducesTo [0] ⟨0, ![]⟩)
    (hu : 0 < (⟨0, ![]⟩ : Shape).numel) :
    Host.reduce FloatOps.maximumf x v h2 hu = Host.reduce FloatOps.maximumf y v h1 hu := by
  funext j
  -- the result shape has rank zero: it has one index, so every operand index drops to `j`
  have hj : ∀ j' : (⟨0, ![]⟩ : Shape).Idx, j' = j := fun j' => funext fun d => d.elim0
  rw [Host.reduce_eq_fold, Host.reduce_eq_fold, Finset.filter_true_of_mem fun i _ => hj _,
    Finset.filter_true_of_mem fun i _ => hj _]
  -- re-index the column's fold along `i ↦ (i, 0)`
  rw [← Finset.map_univ_equiv (colEquiv n), Finset.fold_map]
  congr 1
  funext i
  exact (hxy (i 0)).trans (congrArg y (eq_ix1 i).symm)

end Idealize.ShloMosaic.AssocMax
-- ==== Proof.BridgeProj.lean ====
/-
  The kernel program's projection stage against the reference's three matrix products.

  The kernel program multiplies the node rows x (100000 × 128) by the extended matrix
  wext = [W | W·a_top | W·a_bot | 0 …] (128 × 256): zeros overwritten by W at columns 0…127, by the vector W·a_top
  at column 128 and by W·a_bot at column 129 (a_top, a_bot the two halves of the attention vector). So columns 0…127 of
  the product are x·W, and columns 128 and 129 are x·(W·a_top) and x·(W·a_bot). The reference computes h = x·W first
  and then h·a_top and h·a_bot.

  Three steps:
  • the extended matrix read at an entry (`wext_apply_lt`, `wext_apply_128`, `wext_apply_129`): each of the three
    overwriting scatters sends its update entry to one computed position — the block update (r, c) to (r, c), the
    column update r to (r, 128) resp. (r, 129) — so an entry is the update that lands on it, and an entry no update
    lands on is left as it was;
  • a matrix product with one contracted axis read at an entry is the sum over that axis of the products
    (`dotGeneral_two_apply` and its three instances);
  • columns 0…127 agree with x·W term by term (`featCols_proj`); columns 128 and 129 agree with (x·W)·a by
    associativity of the triple product, (x·W)·a = x·(W·a), which needs every entry real: on the extended reals
    multiplication does not distribute over addition at the infinities (`score128_proj`, `score129_proj`).
-/
import proofs.«161476_j38508676776169_1_alg».proof.Proof.KDefs
import proofs.«161476_j38508676776169_1_alg».proof.Proof.RefDefs
import proofs.«161476_j38508676776169_1_alg».proof.Proof.LibScatterSet
import proofs.«161476_j38508676776169_1_alg».proof.Proof.LibAssocMax
import Idealize.ShloMosaic.PureOps.Ideal.Laws
import Idealize.ShloMosaic.Lib.ValueIdx
import Idealize.ShloMosaic.Lib.Pipeline.Value
import Idealize.ShloMosaic.Lib.ValueLayout

open scoped BigOperators

noncomputable section

namespace Cert.Gat.BridgeProj

open Idealize.ShloMosaic Idealize.ShloMosaic.ValueIdx Cert.KernelIdeal

/-- The one-element column-index vector reads its word at every index. -/
theorem colIdx_apply (c : BitVec 32) (i : S1.Idx) : KVal.colIdx c i = c := rfl

/-! ## The block scatter (a 128 × 128 update written with its corner at column `c`): start and window per axis -/

theorem blockScatter_start_0 (j : S128x128.Idx) (idx : IVec S1 32) :
    scatter_S128x256_S1_S128x128_01_n_1_0.start j idx 0 = 0 := by
  unfold ScatterDims.start
  rw [dif_neg (by decide)]

theorem blockScatter_start_1 (j : S128x128.Idx) (c : BitVec 32) :
    scatter_S128x256_S1_S128x128_01_n_1_0.start j (KVal.colIdx c) 1 = c.toInt := by
  unfold ScatterDims.start
  rw [dif_pos (by decide)]
  rfl

theorem blockScatter_window_0 (j : S128x128.Idx) :
    scatter_S128x256_S1_S128x128_01_n_1_0.window j 0 = (j 0).val := by
  unfold ScatterDims.window
  rw [dif_pos (by decide)]
  rfl

theorem blockScatter_window_1 (j : S128x128.Idx) :
    scatter_S128x256_S1_S128x128_01_n_1_0.window j 1 = (j 1).val := by
  unfold ScatterDims.window
  rw [dif_pos (by decide)]
  rfl

/-- Update (p, q) of the block scatter with corner column 0 lands at (p, q). -/
theorem blockScatter_resultIdx (p q : Fin 128) :
    scatter_S128x256_S1_S128x128_01_n_1_0.resultIdx? (ix2 p q) (KVal.colIdx 0#32)
      = some (ix2 p (⟨q.val, by omega⟩ : Fin 256)) := by
  have h0 := blockScatter_start_0 (ix2 p q) (KVal.colIdx 0#32)
  have h1 := blockScatter_start_1 (ix2 p q) 0#32
  have w0 := blockScatter_window_0 (ix2 p q)
  have w1 := blockScatter_window_1 (ix2 p q)
  have hp : p.val < 128 := p.isLt
  have hq : q.val < 128 := q.isLt
  have hz : (0#32 : BitVec 32).toInt = 0 := by decide
  unfold ScatterDims.resultIdx?
  rw [dif_pos (Fin.forall_fin_two.2 ⟨by rw [h0, w0]; show (0 : Int) ≤ 0 + ((p.val : Nat) : Int) ∧ 0 + ((p.val : Nat) : Int) < 128; omega,
    by rw [h1, w1, hz]; show (0 : Int) ≤ 0 + ((q.val : Nat) : Int) ∧ 0 + ((q.val : Nat) : Int) < 256; omega⟩)]
  refine congrArg some (funext fun a => Fin.ext ?_)
  match a with
  | ⟨0, _⟩ =>
    show (scatter_S128x256_S1_S128x128_01_n_1_0.start (ix2 p q) (KVal.colIdx 0#32) 0
      + scatter_S128x256_S1_S128x128_01_n_1_0.window (ix2 p q) 0).toNat = p.val
    rw [h0, w0]; show ((0 : Int) + ((p.val : Nat) : Int)).toNat = p.val; omega
  | ⟨1, _⟩ =>
    show (scatter_S128x256_S1_S128x128_01_n_1_0.start (ix2 p q) (KVal.colIdx 0#32) 1
      + scatter_S128x256_S1_S128x128_01_n_1_0.window (ix2 p q) 1).toNat = q.val
    rw [h1, w1, hz]; show ((0 : Int) + ((q.val : Nat) : Int)).toNat = q.val; omega

/-! ## The column scatter (a length-128 update written down column `c`): start and window per axis -/

theorem colScatter_start_0 (j : S128.Idx) (idx : IVec S1 32) :
    scatter_S128x256_S1_S128_0_1_1_0.start j idx 0 = 0 := by
  unfold ScatterDims.start
  rw [dif_neg (by decide)]

theorem colScatter_start_1 (j : S128.Idx) (c : BitVec 32) :
    scatter_S128x256_S1_S128_0_1_1_0.start j (KVal.colIdx c) 1 = c.toInt := by
  unfold ScatterDims.start
  rw [dif_pos (by decide)]
  rfl

theorem colScatter_window_0 (j : S128.Idx) :
    scatter_S128x256_S1_S128_0_1_1_0.window j 0 = (j 0).val := by
  unfold ScatterDims.window
  rw [dif_pos (by decide)]
  rfl

theorem colScatter_window_1 (j : S128.Idx) :
    scatter_S128x256_S1_S128_0_1_1_0.window j 1 = 0 := by
  unfold ScatterDims.window
  rw [dif_neg (by decide)]

/-- Update r of the column scatter at column word `c` (read signed, equal to n < 256) lands at (r, n). -/
theorem colScatter_resultIdx (r : Fin 128) (c : BitVec 32) (n : Fin 256) (hc : c.toInt = ((n.val : Nat) : Int)) :
    scatter_S128x256_S1_S128_0_1_1_0.resultIdx? (ix1 r) (KVal.colIdx c) = some (ix2 r n) := by
  have h0 := colScatter_start_0 (ix1 r) (KVal.colIdx c)
  have h1 := colScatter_start_1 (ix1 r) c
  have w0 := colScatter_window_0 (ix1 r)
  have w1 := colScatter_window_1 (ix1 r)
  have hr : r.val < 128 := r.isLt
  have hn : n.val < 256 := n.isLt
  unfold ScatterDims.resultIdx?
  rw [dif_pos (Fin.forall_fin_two.2 ⟨by rw [h0, w0]; show (0 : Int) ≤ 0 + ((r.val : Nat) : Int) ∧ 0 + ((r.val : Nat) : Int) < 128; omega,
    by rw [h1, w1, hc]; show (0 : Int) ≤ ((n.val : Nat) : Int) + ((0 : Nat) : Int) ∧ ((n.val : Nat) : Int) + ((0 : Nat) : Int) < 256; omega⟩)]
  refine congrArg some (funext fun a => Fin.ext ?_)
  match a with
  | ⟨0, _⟩ =>
    show (scatter_S128x256_S1_S128_0_1_1_0.start (ix1 r) (KVal.colIdx c) 0
      + scatter_S128x256_S1_S128_0_1_1_0.window (ix1 r) 0).toNat = r.val
    rw [h0, w0]; show ((0 : Int) + ((r.val : Nat) : Int)).toNat = r.val; omega
  | ⟨1, _⟩ =>
    show (scatter_S128x256_S1_S128_0_1_1_0.start (ix1 r) (KVal.colIdx c) 1
      + scatter_S128x256_S1_S128_0_1_1_0.window (ix1 r) 1).toNat = n.val
    rw [h1, w1, hc]; show (((n.val : Nat) : Int) + ((0 : Nat) : Int)).toNat = n.val; omega

/-! ## The extended weight matrix at an entry -/

/-- Off its own column the column scatter changes nothing. -/
theorem colScatter_apply_of_ne (X : FVec Ideal S128x256 .f32) (u : FVec Ideal S128 .f32) (c : BitVec 32) (n : Fin 256)
    (hc : c.toInt = ((n.val : Nat) : Int)) (k : Fin 128) (j : Fin 256) (hne : j ≠ n) :
    Host.scatter scatter_S128x256_S1_S128_0_1_1_0 (fun _ b => b) X (KVal.colIdx c) u (ix2 k j) = X (ix2 k j) := by
  refine ScatterSet.scatter_set_of_no_hit _ _ _ _ _ fun j' => ?_
  obtain ⟨r, rfl⟩ : ∃ r : Fin 128, j' = ix1 r := ⟨j' 0, eq_ix1 j'⟩
  rw [colScatter_resultIdx r c n hc]
  intro h
  have h1 : n = j := congrFun (Option.some.inj h) (1 : Fin 2)
  exact hne h1.symm

/-- On its own column the column scatter writes the update. -/
theorem colScatter_apply_self (X : FVec Ideal S128x256 .f32) (u : FVec Ideal S128 .f32) (c : BitVec 32) (n : Fin 256)
    (hc : c.toInt = ((n.val : Nat) : Int)) (k : Fin 128) :
    Host.scatter scatter_S128x256_S1_S128_0_1_1_0 (fun _ b => b) X (KVal.colIdx c) u (ix2 k n) = u (ix1 k) := by
  refine ScatterSet.scatter_set_of_hits_agree _ _ _ _ _ _ ⟨ix1 k, colScatter_resultIdx k c n hc⟩ fun j' => ?_
  obtain ⟨r, rfl⟩ : ∃ r : Fin 128, j' = ix1 r := ⟨j' 0, eq_ix1 j'⟩
  rw [colScatter_resultIdx r c n hc]
  intro h
  have h0 : r = k := congrFun (Option.some.inj h) (0 : Fin 2)
  rw [h0]

/-- In columns 0…127 the block scatter with corner column 0 writes the update. -/
theorem blockScatter_apply_lt (X : FVec Ideal S128x256 .f32) (w : FVec Ideal S128x128 .f32) (k : Fin 128) (j : Fin 256) (hj : j.val < 128) :
    Host.scatter scatter_S128x256_S1_S128x128_01_n_1_0 (fun _ b => b) X (KVal.colIdx 0#32) w (ix2 k j) = w (ix2 k ⟨j.val, hj⟩) := by
  have hres : scatter_S128x256_S1_S128x128_01_n_1_0.resultIdx? (ix2 k (⟨j.val, hj⟩ : Fin 128)) (KVal.colIdx 0#32) = some (ix2 k j) :=
    blockScatter_resultIdx k ⟨j.val, hj⟩
  refine ScatterSet.scatter_set_of_hits_agree _ _ _ _ _ _ ⟨ix2 k ⟨j.val, hj⟩, hres⟩ fun j' => ?_
  obtain ⟨p, q, rfl⟩ : ∃ (p q : Fin 128), j' = ix2 p q := ⟨j' 0, j' 1, eq_ix2 j'⟩
  rw [blockScatter_resultIdx p q]
  intro h
  have h0 : p = k := congrFun (Option.some.inj h) (0 : Fin 2)
  have h1 : (⟨q.val, by omega⟩ : Fin 256) = j := congrFun (Option.some.inj h) (1 : Fin 2)
  have hv : q.val = j.val := congrArg (fun t : Fin 256 => t.val) h1
  have h1' : q = ⟨j.val, hj⟩ := Fin.ext hv
  rw [h0, h1']

theorem toInt_128 : (128#32 : BitVec 32).toInt = (((⟨128, by omega⟩ : Fin 256).val : Nat) : Int) := by decide
theorem toInt_129 : (129#32 : BitVec 32).toInt = (((⟨129, by omega⟩ : Fin 256).val : Nat) : Int) := by decide

theorem wext_apply_lt (w : FVec Ideal S128x128 .f32) (c0 c1 : FVec Ideal S128 .f32) (k : Fin 128) (j : Fin 256) (hj : j.val < 128) :
    KVal.wextOf w c0 c1 (ix2 k j) = w (ix2 k ⟨j.val, hj⟩) := by
  unfold KVal.wextOf
  rw [colScatter_apply_of_ne _ _ _ ⟨129, by omega⟩ toInt_129 k j (fun h => by have h' : j.val = 129 := congrArg Fin.val h; omega),
    colScatter_apply_of_ne _ _ _ ⟨128, by omega⟩ toInt_128 k j (fun h => by have h' : j.val = 128 := congrArg Fin.val h; omega),
    blockScatter_apply_lt _ _ k j hj]

theorem wext_apply_128 (w : FVec Ideal S128x128 .f32) (c0 c1 : FVec Ideal S128 .f32) (k : Fin 128) :
    KVal.wextOf w c0 c1 (ix2 k (⟨128, by omega⟩ : Fin 256)) = c0 (ix1 k) := by
  unfold KVal.wextOf
  rw [colScatter_apply_of_ne _ _ _ ⟨129, by omega⟩ toInt_129 k ⟨128, by omega⟩ (by decide),
    colScatter_apply_self _ _ _ ⟨128, by omega⟩ toInt_128 k]

theorem wext_apply_129 (w : FVec Ideal S128x128 .f32) (c0 c1 : FVec Ideal S128 .f32) (k : Fin 128) :
    KVal.wextOf w c0 c1 (ix2 k (⟨129, by omega⟩ : Fin 256)) = c1 (ix1 k) := by
  unfold KVal.wextOf
  rw [colScatter_apply_self _ _ _ ⟨129, by omega⟩ toInt_129 k]

/-! ## A matrix product with one contracted axis, read at an entry -/

/-- A `dot_general` of an M × K by a K × N matrix whose dimension numbers read the left operand at (row, k) and the
    right operand at (k, column) is, at an entry, the sum over k of the products. -/
theorem dotGeneral_two_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ j k, (D.lhsIdx j k 0).val = (j 0).val) (l1 : ∀ j k, (D.lhsIdx j k 1).val = (k ⟨0, by omega⟩).val)
    (r0 : ∀ j k, (D.rhsIdx j k 0).val = (k ⟨0, by omega⟩).val) (r1 : ∀ j k, (D.rhsIdx j k 1).val = (j 1).val)
    (prec : Option ContractPrecision) (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  show FloatOps.dotGeneral _ prec _ A B (ix2 a b) = _
  rw [Ideal.dotGeneral_apply, ← Equiv.sum_comp (contrEquiv1 D K hr hs).symm]
  refine Finset.sum_congr rfl fun c _ => ?_
  have c2 := contrEquiv1_symm_val D K hr hs c
  have l2 : D.lhsIdx (ix2 a b) ((contrEquiv1 D K hr hs).symm c) = ix2 a c := by
    funext ax; apply Fin.ext
    match ax with
    | ⟨0, _⟩ => exact l0 _ _
    | ⟨1, _⟩ => exact (l1 _ _).trans c2
  have r2 : D.rhsIdx (ix2 a b) ((contrEquiv1 D K hr hs).symm c) = ix2 c b := by
    funext ax; apply Fin.ext
    match ax with
    | ⟨0, _⟩ => exact (r0 _ _).trans c2
    | ⟨1, _⟩ => exact r1 _ _
  rw [l2, r2]

/-- W (128 × 128) times a 128 × 1 column. -/
theorem dotWcol_apply (A : FVec Ideal S128x128 .f32) (B : FVec Ideal S128x1 .f32) (a : Fin 128) (b : Fin 1) :
    Host.dotGeneral dot_S128x128_S128x1_S128x1_1_0_0_1_n_n none A B (ix2 a b) = ∑ c : Fin 128, A (ix2 a c) * B (ix2 c b) :=
  dotGeneral_two_apply dot_S128x128_S128x1_S128x1_1_0_0_1_n_n rfl rfl (fun _ _ => rfl)
    (fun j k => dot_S128x128_S128x1_S128x1_1_0_0_1_n_n.lhsIdx_val_of_single rfl j k)
    (fun j k => dot_S128x128_S128x1_S128x1_1_0_0_1_n_n.rhsIdx_val_of_single rfl j k) (fun _ _ => rfl) none A B a b

/-- The node rows (100000 × 128) times W (128 × 128). -/
theorem dotXW_apply (A : FVec Ideal S100000x128 .f32) (B : FVec Ideal S128x128 .f32) (a : Fin 100000) (b : Fin 128) :
    Host.dotGeneral Cert.ReferenceIdeal.dot_S100000x128_S128x128_S100000x128_1_0_0_1_n_n none A B (ix2 a b)
      = ∑ c : Fin 128, A (ix2 a c) * B (ix2 c b) :=
  dotGeneral_two_apply Cert.ReferenceIdeal.dot_S100000x128_S128x128_S100000x128_1_0_0_1_n_n rfl rfl (fun _ _ => rfl)
    (fun j k => Cert.ReferenceIdeal.dot_S100000x128_S128x128_S100000x128_1_0_0_1_n_n.lhsIdx_val_of_single rfl j k)
    (fun j k => Cert.ReferenceIdeal.dot_S100000x128_S128x128_S100000x128_1_0_0_1_n_n.rhsIdx_val_of_single rfl j k) (fun _ _ => rfl) none A B a b

/-- The projected rows (100000 × 128) times a 128 × 1 column. -/
theorem dotHcol_apply (A : FVec Ideal S100000x128 .f32) (B : FVec Ideal S128x1 .f32) (a : Fin 100000) (b : Fin 1) :
    Host.dotGeneral Cert.ReferenceIdeal.dot_S100000x128_S128x1_S100000x1_1_0_0_1_n_n none A B (ix2 a b)
      = ∑ c : Fin 128, A (ix2 a c) * B (ix2 c b) :=
  dotGeneral_two_apply Cert.ReferenceIdeal.dot_S100000x128_S128x1_S100000x1_1_0_0_1_n_n rfl rfl (fun _ _ => rfl)
    (fun j k => Cert.ReferenceIdeal.dot_S100000x128_S128x1_S100000x1_1_0_0_1_n_n.lhsIdx_val_of_single rfl j k)
    (fun j k => Cert.ReferenceIdeal.dot_S100000x128_S128x1_S100000x1_1_0_0_1_n_n.rhsIdx_val_of_single rfl j k) (fun _ _ => rfl) none A B a b

/-! ## A one-column array as a vector -/

/-- An `[a, 1]` array cast to `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-! ## The projection stage against the reference's three products -/

/-- The two halves of the attention vector as 128 × 1 columns, read at an entry. -/
theorem attTop_apply (att : FVec Ideal S256x1 .f32) (h : S256x1.Slices ![0, 0] S128x1) (j : Fin 128) :
    extractStridedSlice S128x1 ![0, 0] att h (ix2 j (0 : Fin 1)) = att (ix2 (⟨j.val, by omega⟩ : Fin 256) (0 : Fin 1)) :=
  slice2_axis0_apply 0 att h j 0 ⟨j.val, by omega⟩ (Nat.zero_add _).symm

theorem attBot_apply (att : FVec Ideal S256x1 .f32) (h : S256x1.Slices ![128, 0] S128x1) (j : Fin 128) :
    extractStridedSlice S128x1 ![128, 0] att h (ix2 j (0 : Fin 1)) = att (ix2 (⟨128 + j.val, by omega⟩ : Fin 256) (0 : Fin 1)) :=
  slice2_axis0_apply 128 att h j 0 ⟨128 + j.val, by omega⟩ rfl

theorem featCols_proj (x : FVec Ideal S100000x128 .f32) (w : FVec Ideal S128x128 .f32) (att : FVec Ideal S256x1 .f32) :
    KVal.featCols (KVal.projAll x (KVal.wext w att)) = Cert.ReferenceIdeal.RefVal.feat (F := Ideal) x w := by
  funext i
  obtain ⟨p, q, rfl⟩ : ∃ (p : Fin 100000) (q : Fin 128), i = ix2 p q := ⟨i 0, i 1, eq_ix2 i⟩
  unfold KVal.featCols Cert.ReferenceIdeal.RefVal.feat
  rw [slice2_axis1_apply 0 _ _ p q (⟨q.val, by omega⟩ : Fin 256) (Nat.zero_add _).symm, dotXW_apply]
  show ∑ k : Fin 128, x (ix2 p k) * KVal.wext w att (ix2 k (⟨q.val, by omega⟩ : Fin 256)) = _
  refine Finset.sum_congr rfl fun k _ => ?_
  rw [KVal.wext, wext_apply_lt _ _ _ k _ q.isLt]

/-- Column 128 of the extended matrix is W·a_top, entry by entry. -/
theorem wext_col128 (w : FVec Ideal S128x128 .f32) (att : FVec Ideal S256x1 .f32) (k : Fin 128) :
    KVal.wext w att (ix2 k (⟨128, by omega⟩ : Fin 256))
      = ∑ j : Fin 128, w (ix2 k j) * att (ix2 (⟨j.val, by omega⟩ : Fin 256) (0 : Fin 1)) := by
  rw [KVal.wext, wext_apply_128]
  unfold KVal.attCol0
  rw [shapeCast_a1_a_apply, dotWcol_apply]
  exact Finset.sum_congr rfl fun j _ => by rw [attTop_apply]

/-- Column 129 of the extended matrix is W·a_bot, entry by entry. -/
theorem wext_col129 (w : FVec Ideal S128x128 .f32) (att : FVec Ideal S256x1 .f32) (k : Fin 128) :
    KVal.wext w att (ix2 k (⟨129, by omega⟩ : Fin 256))
      = ∑ j : Fin 128, w (ix2 k j) * att (ix2 (⟨128 + j.val, by omega⟩ : Fin 256) (0 : Fin 1)) := by
  rw [KVal.wext, wext_apply_129]
  unfold KVal.attCol1
  rw [shapeCast_a1_a_apply, dotWcol_apply]
  exact Finset.sum_congr rfl fun j _ => by rw [attBot_apply]

/-- The reference's projected features at an entry: (x·W)(p, j) = Σ_k x(p,k) · W(k,j). -/
theorem feat_apply (x : FVec Ideal S100000x128 .f32) (w : FVec Ideal S128x128 .f32) (p : Fin 100000) (j : Fin 128) :
    Cert.ReferenceIdeal.RefVal.feat (F := Ideal) x w (ix2 p j) = ∑ k : Fin 128, x (ix2 p k) * w (ix2 k j) :=
  dotXW_apply x w p j

theorem score128_proj (x : FVec Ideal S100000x128 .f32) (w : FVec Ideal S128x128 .f32) (att : FVec Ideal S256x1 .f32)
    (hx : ∀ i, ∃ r : ℝ, x i = (r : EReal)) (hw : ∀ i, ∃ r : ℝ, w i = (r : EReal)) (ha : ∀ i, ∃ r : ℝ, att i = (r : EReal)) :
    KVal.scoreCol128 (KVal.projAll x (KVal.wext w att))
      = Cert.ReferenceIdeal.RefVal.score0 (Cert.ReferenceIdeal.RefVal.feat (F := Ideal) x w) att := by
  funext i
  obtain ⟨p, rfl⟩ : ∃ p : Fin 100000, i = ix1 p := ⟨i 0, eq_ix1 i⟩
  unfold KVal.scoreCol128 Cert.ReferenceIdeal.RefVal.score0
  rw [shapeCast_a1_a_apply, shapeCast_a1_a_apply,
    slice2_axis1_apply 128 _ _ p (0 : Fin 1) (⟨128, by omega⟩ : Fin 256) rfl, dotHcol_apply]
  show ∑ k : Fin 128, x (ix2 p k) * KVal.wext w att (ix2 k (⟨128, by omega⟩ : Fin 256)) = _
  -- left: Σ_k x(p,k) · (Σ_j W(k,j) · a_top(j)); right: Σ_j (Σ_k x(p,k) · W(k,j)) · a_top(j)
  conv_lhs => enter [2, k]; rw [wext_col128 w att k]
  conv_rhs => enter [2, j]; rw [feat_apply x w p j, attTop_apply]
  exact AssocMax.sum_mul_sum_assoc (fun k => x (ix2 p k)) (fun k j => w (ix2 k j))
    (fun j => att (ix2 (⟨j.val, by omega⟩ : Fin 256) (0 : Fin 1))) (fun k => hx _) (fun k j => hw _) (fun j => ha _)

theorem score129_proj (x : FVec Ideal S100000x128 .f32) (w : FVec Ideal S128x128 .f32) (att : FVec Ideal S256x1 .f32)
    (hx : ∀ i, ∃ r : ℝ, x i = (r : EReal)) (hw : ∀ i, ∃ r : ℝ, w i = (r : EReal)) (ha : ∀ i, ∃ r : ℝ, att i = (r : EReal)) :
    KVal.scoreCol129 (KVal.projAll x (KVal.wext w att))
      = Cert.ReferenceIdeal.RefVal.score1 (Cert.ReferenceIdeal.RefVal.feat (F := Ideal) x w) att := by
  funext i
  obtain ⟨p, rfl⟩ : ∃ p : Fin 100000, i = ix1 p := ⟨i 0, eq_ix1 i⟩
  unfold KVal.scoreCol129 Cert.ReferenceIdeal.RefVal.score1
  rw [shapeCast_a1_a_apply, shapeCast_a1_a_apply,
    slice2_axis1_apply 129 _ _ p (0 : Fin 1) (⟨129, by omega⟩ : Fin 256) rfl, dotHcol_apply]
  show ∑ k : Fin 128, x (ix2 p k) * KVal.wext w att (ix2 k (⟨129, by omega⟩ : Fin 256)) = _
  -- left: Σ_k x(p,k) · (Σ_j W(k,j) · a_bot(j)); right: Σ_j (Σ_k x(p,k) · W(k,j)) · a_bot(j)
  conv_lhs => enter [2, k]; rw [wext_col129 w att k]
  conv_rhs => enter [2, j]; rw [feat_apply x w p j, attBot_apply]
  exact AssocMax.sum_mul_sum_assoc (fun k => x (ix2 p k)) (fun k j => w (ix2 k j))
    (fun j => att (ix2 (⟨128 + j.val, by omega⟩ : Fin 256) (0 : Fin 1))) (fun k => hx _) (fun k j => hw _) (fun j => ha _)

end Cert.Gat.BridgeProj

end
-- ==== Proof.BridgeEdge.lean ====
/-
  The edge-wise half of the layer. Given the same projected node features and the same two per-node scores, the
  kernel program's gathers, pointwise leaky-relu, global maximum, exponential / message stage and final segment
  sums compute what the reference's do.

  The kernel program carries every per-edge quantity as a one-column array [900000, 1] (a gathered score reshaped,
  the logits, e = exp(logit − max)), its maximum as a 1 × 1 array, and reshapes e back to a vector for the segment
  sum; the reference carries vectors of length 900000. Entry (t, 0) of each kernel array is entry t of the
  reference's vector; the maximum over the column is the maximum over the vector; the message e(t) · h[dst(t)](j)
  is the same number in both; and the two tails are one function of equal operands. Nothing here uses finiteness:
  the same operations meet the same extended reals, only the arrangement differs.
-/
import proofs.«161476_j38508676776169_1_alg».proof.Proof.KDefs
import proofs.«161476_j38508676776169_1_alg».proof.Proof.RefDefs
import proofs.«161476_j38508676776169_1_alg».proof.Proof.LibAssocMax
import Idealize.ShloMosaic.PureOps.Ideal
import Idealize.ShloMosaic.Lib.ValueIdx
import Idealize.ShloMosaic.Lib.Pipeline.Value
import Idealize.ShloMosaic.Lib.ValueLayout

noncomputable section

namespace Cert.Gat.BridgeEdge

open Idealize.ShloMosaic Idealize.ShloMosaic.ValueIdx
open Cert

/-! ## Reshapes between a vector and a one-column array, and a scalar as a 1 × 1 array, read at an index -/

section Reshape
variable {α : Type}

/-- A length-n vector reshaped to an [n, 1] column reads, at (t, u), the vector at t. -/
theorem shapeCast_vec_col_apply {n : ℕ} (x : (⟨1, ![n]⟩ : Shape).Idx → α) (h : (⟨1, ![n]⟩ : Shape).ShapeCasts ⟨2, ![n, 1]⟩)
    (t : Fin n) (u : Fin 1) : shapeCast ⟨2, ![n, 1]⟩ x h (ix2 t u) = x (ix1 t) :=
  shapeCast_apply x h _ _ (by
    have hu : u.val = 0 := by omega
    rw [Shape.rowMajor_val_two, Shape.rowMajor_val_one]
    show t.val = t.val * 1 + u.val
    rw [hu, Nat.mul_one, Nat.add_zero])

/-- An [n, 1] column reshaped to a length-n vector reads, at t, the column at (t, 0). -/
theorem shapeCast_col_vec_apply {n : ℕ} (x : (⟨2, ![n, 1]⟩ : Shape).Idx → α) (h : (⟨2, ![n, 1]⟩ : Shape).ShapeCasts ⟨1, ![n]⟩)
    (t : Fin n) : shapeCast ⟨1, ![n]⟩ x h (ix1 t) = x (ix2 t (0 : Fin 1)) :=
  shapeCast_apply x h _ _ (by
    rw [Shape.rowMajor_val_two, Shape.rowMajor_val_one]
    show t.val * 1 + 0 = t.val
    rw [Nat.mul_one, Nat.add_zero])

/-- A rank-0 array reshaped to any shape reads its one entry everywhere. -/
theorem shapeCast_scalar_apply {t : Shape} (v : (⟨0, ![]⟩ : Shape).Idx → α) (h : (⟨0, ![]⟩ : Shape).ShapeCasts t) (j : t.Idx) :
    shapeCast t v h j = v ix0 := by
  unfold shapeCast
  exact congrArg v (eq_ix0 _)

/-- A rank-0 array broadcast to any shape reads its one entry everywhere. -/
theorem broadcastInDim_scalar_apply {t : Shape} (dims : Fin 0 → Fin t.rank) (h : (⟨0, ![]⟩ : Shape).BroadcastsInDim t dims)
    (v : (⟨0, ![]⟩ : Shape).Idx → α) (j : t.Idx) : broadcastInDim t dims h v j = v ix0 := by
  unfold broadcastInDim
  exact congrArg v (eq_ix0 _)

/-- A length-n vector broadcast along the rows of an [n, 1] column and then along the rows of an [n, m] array reads,
    at (t, j), the vector at t. -/
theorem broadcast_vec_rows_apply {n m : ℕ} (e : (⟨1, ![n]⟩ : Shape).Idx → α) (hn : n ≠ 1)
    (h1 : (⟨1, ![n]⟩ : Shape).BroadcastsInDim ⟨2, ![n, 1]⟩ ![0])
    (h2 : (⟨2, ![n, 1]⟩ : Shape).BroadcastsInDim ⟨2, ![n, m]⟩ ![0, 1]) (t : Fin n) (j : Fin m) :
    broadcastInDim ⟨2, ![n, m]⟩ ![0, 1] h2 (broadcastInDim ⟨2, ![n, 1]⟩ ![0] h1 e) (ix2 t j) = e (ix1 t) := by
  refine (broadcastInDim_apply _ h2 _ (ix2 t j) (ix2 t (0 : Fin 1)) fun a => ?_).trans
    (broadcastInDim_apply _ h1 e (ix2 t (0 : Fin 1)) (ix1 t) fun a => ?_)
  · match a with
    | ⟨0, _⟩ => show t.val = if n = 1 then 0 else t.val; rw [if_neg hn]
    | ⟨1, _⟩ => show (0 : ℕ) = if (1 : ℕ) = 1 then 0 else j.val; rw [if_pos rfl]
  · match a with
    | ⟨0, _⟩ => show t.val = if n = 1 then 0 else t.val; rw [if_neg hn]

end Reshape

/-! ## The two programs' edge lists, index tables and dimension numbers are the same terms

Each program states its own shape facts and dimension-number records; the data fields agree and the remaining
fields are propositions, so the two spellings of one operation are equal by reflexivity. -/

theorem srcAll_eq (ei : IVec KernelIdeal.S2x800000 32) : KernelIdeal.KVal.srcAll ei = ReferenceIdeal.RefVal.srcAll ei := rfl

theorem dstAll_eq (ei : IVec KernelIdeal.S2x800000 32) : KernelIdeal.KVal.dstAll ei = ReferenceIdeal.RefVal.dstAll ei := rfl

/-- The gather index table of a node list is the same term in both programs. -/
theorem wrapIdx_eq (v : IVec KernelIdeal.S900000 32) : KernelIdeal.KVal.wrapIdx v = ReferenceIdeal.RefVal.wrapIdx v := rfl

/-- The dimension numbers of the per-node score gather. -/
theorem gatherDims1_eq : KernelIdeal.gather_S100000_S900000x1_S900000_n_0_n_n_0_1_1
    = ReferenceIdeal.gather_S100000_S900000x1_S900000_n_0_n_n_0_1_1 := rfl

/-- The dimension numbers of the feature-row gather. -/
theorem gatherDims2_eq : KernelIdeal.gather_S100000x128_S900000x1_S900000x128_1_0_n_n_0_1_1128
    = ReferenceIdeal.gather_S100000x128_S900000x1_S900000x128_1_0_n_n_0_1_1128 := rfl

/-- The dimension numbers of the two segment sums. -/
theorem scatterDims1_eq : KernelIdeal.scatter_S100000_S900000x1_S900000_n_0_0_1
    = ReferenceIdeal.scatter_S100000_S900000x1_S900000_n_0_0_1 := rfl
theorem scatterDims2_eq : KernelIdeal.scatter_S100000x128_S900000x1_S900000x128_1_0_0_1
    = ReferenceIdeal.scatter_S100000x128_S900000x1_S900000x128_1_0_0_1 := rfl

/-! ## The logits: entry (t, 0) of the kernel's column is entry t of the reference's vector -/

/-- The kernel's gathered score column is the reference's gathered score vector, reshaped. -/
theorem gatherCol_eq (a : FVec Ideal KernelIdeal.S100000 .f32) (v : IVec KernelIdeal.S900000 32) :
    KernelIdeal.KVal.gatherCol a v
      = shapeCast KernelIdeal.S900000x1
          (Host.gather ReferenceIdeal.gather_S100000_S900000x1_S900000_n_0_n_n_0_1_1 a (ReferenceIdeal.RefVal.wrapIdx v))
          KernelIdeal.Facts₀.shapeCasts_S900000_S900000x1 := by
  unfold KernelIdeal.KVal.gatherCol
  rw [wrapIdx_eq, gatherDims1_eq]

/-- The pointwise leaky-relu of the sum of two columns, read at (t, 0), is the leaky-relu of the two vectors they
    reshape, read at t: the same comparison, sum, product and selection on the same two extended reals. -/
theorem leaky_col_apply (g1 g2 : FVec Ideal KernelIdeal.S900000 .f32) (t : Fin 900000) :
    KernelIdeal.KVal.leakyAll (shapeCast KernelIdeal.S900000x1 g1 KernelIdeal.Facts₀.shapeCasts_S900000_S900000x1)
        (shapeCast KernelIdeal.S900000x1 g2 KernelIdeal.Facts₀.shapeCasts_S900000_S900000x1) (ix2 t (0 : Fin 1))
      = select (cmpf .oge (addf g1 g2)
            (broadcastInDim ReferenceIdeal.S900000 ![] ReferenceIdeal.Facts₀.bcast_S_S900000 (constant ReferenceIdeal.S_ .f32 0x00000000#32)))
          (addf g1 g2)
          (mulf (broadcastInDim ReferenceIdeal.S900000 ![] ReferenceIdeal.Facts₀.bcast_S_S900000 (constant ReferenceIdeal.S_ .f32 0x3C23D70A#32))
            (addf g1 g2)) (ix1 t) := by
  unfold KernelIdeal.KVal.leakyAll
  simp only [select_apply, cmpf_apply, addf_apply, mulf_apply, broadcast_apply, shapeCast_vec_col_apply,
    broadcastInDim_scalar_apply]
  rfl

/-- The kernel's logits column against the reference's logits vector. -/
theorem logits_apply (asrc adst : FVec Ideal KernelIdeal.S100000 .f32) (src dst : IVec KernelIdeal.S900000 32) (t : Fin 900000) :
    KernelIdeal.KVal.leakyAll (KernelIdeal.KVal.gatherCol asrc src) (KernelIdeal.KVal.gatherCol adst dst) (ix2 t (0 : Fin 1))
      = ReferenceIdeal.RefVal.logits asrc adst src dst (ix1 t) := by
  rw [gatherCol_eq, gatherCol_eq, leaky_col_apply]
  rfl

/-! ## The maximum, the exponentials and the messages

From here on the kernel's logits column `lgK` and the reference's logits vector `lgR` are two arbitrary arrays with
`lgK (t, 0) = lgR t` for every edge t. -/

/-- The kernel's exponential read at an index is the extended reals' exponential of the entry … -/
theorem vexp_apply {s : Shape} {φ : FTy} (a : FVec Ideal s φ) (i : s.Idx) : exp a i = Ideal.exp (a i) := rfl
/-- … and so is the host's. -/
theorem hostExp_apply {s : Shape} {φ : FTy} (a : FVec Ideal s φ) (i : s.Idx) : Host.exp a i = Ideal.exp (a i) := rfl

section Stage
variable (lgK : FVec Ideal KernelIdeal.S900000x1 .f32) (lgR : FVec Ideal KernelIdeal.S900000 .f32)
  (hlg : ∀ t : Fin 900000, lgK (ix2 t (0 : Fin 1)) = lgR (ix1 t))

include hlg

/-- The one entry of the kernel's 1 × 1 maximum is the reference's maximum: the maximum over the [900000, 1] column
    is the maximum over the vector with the same entries, and a scalar reshaped to 1 × 1 reads its one entry. -/
theorem gmax_apply (j : KernelIdeal.S1x1.Idx) :
    KernelIdeal.KVal.gmaxOf lgK j
      = Host.reduce FloatOps.maximumf lgR (constant ReferenceIdeal.S_ .f32 0xFF800000#32)
          ReferenceIdeal.Facts₀.reducesTo_S900000_S_d0 ReferenceIdeal.Facts₀.h_S_ ix0 := by
  unfold KernelIdeal.KVal.gmaxOf
  rw [shapeCast_scalar_apply]
  exact congrFun (Idealize.ShloMosaic.AssocMax.hostReduce_max_col_eq_vec lgK lgR hlg _ _ _ _) ix0

/-- e at (t, 0) in the kernel is e at t in the reference: the exponential of the same logit less the same maximum. -/
theorem exp_apply (t : Fin 900000) :
    KernelIdeal.KVal.expAll lgK (KernelIdeal.KVal.gmaxOf lgK) (ix2 t (0 : Fin 1)) = ReferenceIdeal.RefVal.expo lgR (ix1 t) := by
  unfold KernelIdeal.KVal.expAll ReferenceIdeal.RefVal.expo
  rw [vexp_apply, hostExp_apply, subf_apply, subf_apply, broadcast_apply, broadcastInDim_scalar_apply, hlg t]
  unfold extractAt
  rw [gmax_apply lgK lgR hlg]

/-- The kernel's e column reshaped to a vector is the reference's e. -/
theorem exp_vec_eq :
    shapeCast KernelIdeal.S900000 (KernelIdeal.KVal.expAll lgK (KernelIdeal.KVal.gmaxOf lgK)) KernelIdeal.Facts₀.shapeCasts_S900000x1_S900000
      = ReferenceIdeal.RefVal.expo lgR := by
  funext i
  obtain ⟨t, rfl⟩ : ∃ t : Fin 900000, i = ix1 t := ⟨i 0, eq_ix1 i⟩
  rw [shapeCast_col_vec_apply]
  exact exp_apply lgK lgR hlg t

/-- The messages agree entry by entry: e(t) · h[dst(t)](j), the reference reading e(t) through two broadcasts along
    the rows, both reading the same gathered feature rows. -/
theorem contrib_eq (h : FVec Ideal KernelIdeal.S100000x128 .f32) (dst : IVec KernelIdeal.S900000 32) :
    KernelIdeal.KVal.contribAll lgK (KernelIdeal.KVal.gatherRows h dst) (KernelIdeal.KVal.gmaxOf lgK)
      = ReferenceIdeal.RefVal.contrib (ReferenceIdeal.RefVal.expo lgR) h dst := by
  funext i
  obtain ⟨t, j, rfl⟩ : ∃ (t : Fin 900000) (j : Fin 128), i = ix2 t j := ⟨i 0, i 1, eq_ix2 i⟩
  unfold KernelIdeal.KVal.contribAll ReferenceIdeal.RefVal.contrib KernelIdeal.KVal.gatherRows
  rw [mulf_apply, broadcast_vec_rows_apply _ (by decide), wrapIdx_eq, gatherDims2_eq]
  exact congrArg (· * _) (exp_apply lgK lgR hlg t)

end Stage

/-! ## The tails, and the edge-wise half as a whole -/

/-- The kernel's tail on a column e and the reference's tail on the vector it reshapes to are one function of equal
    operands. -/
theorem tail_eq (eK : FVec Ideal KernelIdeal.S900000x1 .f32) (eR : FVec Ideal KernelIdeal.S900000 .f32)
    (he : shapeCast KernelIdeal.S900000 eK KernelIdeal.Facts₀.shapeCasts_S900000x1_S900000 = eR)
    (ct : FVec Ideal KernelIdeal.S900000x128 .f32) (src : IVec KernelIdeal.S900000 32) (x : FVec Ideal KernelIdeal.S100000x128 .f32) :
    KernelIdeal.KVal.tailOf eK ct src x = ReferenceIdeal.RefVal.refTail eR ct src x := by
  unfold KernelIdeal.KVal.tailOf ReferenceIdeal.RefVal.refTail
  rw [he, scatterDims1_eq, scatterDims2_eq]

theorem edge_eq (h : FVec Ideal KernelIdeal.S100000x128 .f32) (asrc adst : FVec Ideal KernelIdeal.S100000 .f32)
    (src dst : IVec KernelIdeal.S900000 32) (x : FVec Ideal KernelIdeal.S100000x128 .f32) :
    KernelIdeal.KVal.tailOf
        (KernelIdeal.KVal.expAll (KernelIdeal.KVal.leakyAll (KernelIdeal.KVal.gatherCol asrc src) (KernelIdeal.KVal.gatherCol adst dst))
          (KernelIdeal.KVal.gmaxOf (KernelIdeal.KVal.leakyAll (KernelIdeal.KVal.gatherCol asrc src) (KernelIdeal.KVal.gatherCol adst dst))))
        (KernelIdeal.KVal.contribAll (KernelIdeal.KVal.leakyAll (KernelIdeal.KVal.gatherCol asrc src) (KernelIdeal.KVal.gatherCol adst dst))
          (KernelIdeal.KVal.gatherRows h dst)
          (KernelIdeal.KVal.gmaxOf (KernelIdeal.KVal.leakyAll (KernelIdeal.KVal.gatherCol asrc src) (KernelIdeal.KVal.gatherCol adst dst))))
        src x
      = ReferenceIdeal.RefVal.refTail (ReferenceIdeal.RefVal.expo (ReferenceIdeal.RefVal.logits asrc adst src dst))
          (ReferenceIdeal.RefVal.contrib (ReferenceIdeal.RefVal.expo (ReferenceIdeal.RefVal.logits asrc adst src dst)) h dst) src x := by
  have hlg := logits_apply asrc adst src dst
  generalize KernelIdeal.KVal.leakyAll (KernelIdeal.KVal.gatherCol asrc src) (KernelIdeal.KVal.gatherCol adst dst) = lgK at hlg ⊢
  generalize ReferenceIdeal.RefVal.logits asrc adst src dst = lgR at hlg ⊢
  rw [contrib_eq lgK lgR hlg h dst]
  exact tail_eq _ _ (exp_vec_eq lgK lgR hlg) _ src x

end Cert.Gat.BridgeEdge

end
-- ==== Proof.Bridge.lean ====
/-
  The kernel program and the reference compute one function of the four arguments, when every float entry is real.

  Both are single-head graph attention with a residual. They differ in two ways only. First, where the reference
  forms h = x·W and then the two per-node scores h·a_top and h·a_bot, the kernel program multiplies x once by the
  extended matrix [W | W·a_top | W·a_bot | 0 …] and reads h and the two scores off the columns of the product:
  (x·W)·a = x·(W·a) is associativity of finite sums of products, which on the extended reals holds for real entries
  (distributivity fails at the infinities) — this is where the precondition is used. Second, the kernel program
  carries the per-edge quantities as one-column arrays and computes the leaky-relu, the exponential and the
  messages tile by tile; entry by entry these are the reference's vectors, the two global maxima agree, and the
  final segment sums, quotient and residual are then the same operations on equal operands.
-/
import proofs.«161476_j38508676776169_1_alg».proof.Proof.KDefs
import proofs.«161476_j38508676776169_1_alg».proof.Proof.RefDefs
import proofs.«161476_j38508676776169_1_alg».proof.Proof.BridgeProj
import proofs.«161476_j38508676776169_1_alg».proof.Proof.BridgeEdge

noncomputable section

namespace Cert.Gat.Bridge

open Idealize.ShloMosaic Cert.KernelIdeal

/-- For real entries of x, W and the attention vector, the kernel program's value is the reference's: the projected
    features and the two node scores agree (the columns of x·[W | W·a_top | W·a_bot | 0 …]), the edge lists are
    the same terms, and from equal features and scores the edge-wise halves agree. -/
theorem kerOut_eq_refOut (x : FVec Ideal S100000x128 .f32) (ei : IVec S2x800000 32) (w : FVec Ideal S128x128 .f32)
    (att : FVec Ideal S256x1 .f32)
    (hx : ∀ i, ∃ r : ℝ, x i = (r : EReal)) (hw : ∀ i, ∃ r : ℝ, w i = (r : EReal)) (ha : ∀ i, ∃ r : ℝ, att i = (r : EReal)) :
    KVal.kerOut x ei w att = Cert.ReferenceIdeal.RefVal.refOut (F := Ideal) x ei w att := by
  unfold KVal.kerOut Cert.ReferenceIdeal.RefVal.refOut
  dsimp only
  rw [Cert.Gat.BridgeProj.featCols_proj, Cert.Gat.BridgeProj.score128_proj x w att hx hw ha,
    Cert.Gat.BridgeProj.score129_proj x w att hx hw ha, Cert.Gat.BridgeEdge.srcAll_eq, Cert.Gat.BridgeEdge.dstAll_eq]
  exact Cert.Gat.BridgeEdge.edge_eq _ _ _ _ _ _

end Cert.Gat.Bridge

end
-- ==== Proof.lean ====
/-
  The certificate of a single-head graph-attention layer (100000 nodes, 900000 directed edges, 128 features)
  computed by three tiled kernels among host gathers and segment sums, against its plain reference.

  • The three frames: the two kernel programs' are the generated ones; the reference's is its run with the result
    dropped.
  • The idealization rewrote nothing, so there is nothing to preserve.
  • The value claim: the kernel program's run ends with the result array at the fold of its seven stretches, which
    is `KVal.kerOut` of the four arguments — the three tiled stages each one whole-array function (a matrix product,
    a pointwise leaky-relu, a pointwise exponential and message), the host stretches their printed operations —;
    the reference's run ends at `RefVal.refOut`; and for real inputs (the precondition) the two are one function:
    the kernel reads x·W, x·(W·a_top), x·(W·a_bot) off one product with the extended matrix where the reference
    computes (x·W)·a_top and (x·W)·a_bot, equal by associativity of finite real sums, and the edge-wise halves
    agree entry by entry.
-/
import proofs.«161476_j38508676776169_1_alg».proof.Defs
import proofs.«161476_j38508676776169_1_alg».proof.Proof.Gen.Kernel
import proofs.«161476_j38508676776169_1_alg».proof.Proof.Gen.Kernel.Frame
import proofs.«161476_j38508676776169_1_alg».proof.Proof.Gen.KernelIdeal
import proofs.«161476_j38508676776169_1_alg».proof.Proof.Gen.KernelIdeal.Frame
import proofs.«161476_j38508676776169_1_alg».proof.Proof.Gen.ReferenceIdeal
import proofs.«161476_j38508676776169_1_alg».proof.Proof.Gen.Pre_finite_inputs
import proofs.«161476_j38508676776169_1_alg».proof.Proof.KRun
import proofs.«161476_j38508676776169_1_alg».proof.Proof.KRegion0
import proofs.«161476_j38508676776169_1_alg».proof.Proof.KRegion1
import proofs.«161476_j38508676776169_1_alg».proof.Proof.KRegion2
import proofs.«161476_j38508676776169_1_alg».proof.Proof.KValue
import proofs.«161476_j38508676776169_1_alg».proof.Proof.RefRun
import proofs.«161476_j38508676776169_1_alg».proof.Proof.Finite
import proofs.«161476_j38508676776169_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The kernel program's run, with the result array named: the fold of the seven stretches read back as the
    closed function of the arguments, the three tiled stages at their whole-array values. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v65)
          = Cert.KernelIdeal.KVal.kerOut (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono
    (fun _ h c => ⟨(h c).1.trans (Cert.KernelIdeal.KValue.out_eq Cert.KernelIdeal.KRegion0.final0 Cert.KernelIdeal.KRegion1.final1
        Cert.KernelIdeal.KRegion2.final2_3 Cert.KernelIdeal.KRegion2.final2_4 m ρ c), (h c).2⟩)
    (Cert.KernelIdeal.KRun.run_out (F := Ideal) m ρ)

/-- From memories agreeing on the arguments, both idealized programs end with the same result array: the
    kernel program's closed value, which for real inputs is the reference's. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.RefRun.run (F := Ideal) m' ρ')
  obtain ⟨hx, hw, ha⟩ := Cert.Pre_finite_inputs.Finite.real_of_pre _ _ _ _ (hpre c)
  rw [(hagree c).1, (hagree c).2.1, (hagree c).2.2.1, (hagree c).2.2.2]
  exact (Cert.Gat.Bridge.kerOut_eq_refOut _ _ _ _ hx hw ha).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
